-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x8 : Shape := ⟨2, ![4000000, 8]⟩
abbrev S_ : Shape := ⟨0, ![]⟩

class Facts : Prop where
  bcast_S_S4000000x8 : S_.BroadcastsInDim S4000000x8 (![] : Fin 0 → Fin S4000000x8.rank)
  reducesTo_S4000000x8_S_d0_1 : S4000000x8.ReducesTo [0, 1] S_
  h_S_ : 0 < S_.numel

variable [Facts]

def fn {F : FTy → Type} [FloatOps F] (main_arg0 : FVec F S4000000x8 .f32) (main_arg1 : FVec F S4000000x8 .f32) : IVec S_ 1 :=
  let main_v0 : FVec F S4000000x8 .f32 := Host.absf main_arg0
  let main_cst : FVec F S_ .f32 := constant S_ .f32 0x7F800000#32
  let main_v1 : FVec F S4000000x8 .f32 := broadcastInDim S4000000x8 ![] bcast_S_S4000000x8 main_cst
  let main_v2 : IVec S4000000x8 1 := cmpf .olt main_v0 main_v1
  let main_c : IVec S_ 1 := constantI S_ 1 1#1
  let main_v3 : IVec S_ 1 := (fun x v => Host.reduce IntOp.andi x v reducesTo_S4000000x8_S_d0_1 h_S_) main_v2 main_c
  let main_v4 : FVec F S4000000x8 .f32 := Host.absf main_arg1
  let main_cst_0 : FVec F S_ .f32 := constant S_ .f32 0x7F800000#32
  let main_v5 : FVec F S4000000x8 .f32 := broadcastInDim S4000000x8 ![] bcast_S_S4000000x8 main_cst_0
  let main_v6 : IVec S4000000x8 1 := cmpf .olt main_v4 main_v5
  let main_c_1 : IVec S_ 1 := constantI S_ 1 1#1
  let main_v7 : IVec S_ 1 := (fun x v => Host.reduce IntOp.andi x v reducesTo_S4000000x8_S_d0_1 h_S_) main_v6 main_c_1
  let main_v8 : IVec S_ 1 := andi main_v3 main_v7
  let main_cst_2 : FVec F S_ .f32 := constant S_ .f32 0x00000000#32
  let main_v9 : FVec F S4000000x8 .f32 := broadcastInDim S4000000x8 ![] bcast_S_S4000000x8 main_cst_2
  let main_v10 : IVec S4000000x8 1 := cmpf .oeq main_arg1 main_v9
  let main_cst_3 : FVec F S_ .f32 := constant S_ .f32 0x3F800000#32
  let main_v11 : FVec F S4000000x8 .f32 := broadcastInDim S4000000x8 ![] bcast_S_S4000000x8 main_cst_3
  let main_v12 : IVec S4000000x8 1 := cmpf .oeq main_arg1 main_v11
  let main_v13 : IVec S4000000x8 1 := ori main_v10 main_v12
  let main_c_4 : IVec S_ 1 := constantI S_ 1 1#1
  let main_v14 : IVec S_ 1 := (fun x v => Host.reduce IntOp.andi x v reducesTo_S4000000x8_S_d0_1 h_S_) main_v13 main_c_4
  let main_v15 : IVec S_ 1 := andi main_v8 main_v14
  main_v15
-- ==== Kernel.lean ====
abbrev S4000000x8 : Shape := ⟨2, ![4000000, 8]⟩
abbrev S2x125000x128 : Shape := ⟨3, ![2, 125000, 128]⟩
abbrev S2x1x128 : Shape := ⟨3, ![2, 1, 128]⟩
abbrev S1x5000x128 : Shape := ⟨3, ![1, 5000, 128]⟩
abbrev S1x1x128 : Shape := ⟨3, ![1, 1, 128]⟩
abbrev S1x128 : Shape := ⟨2, ![1, 128]⟩
abbrev S5000x128 : Shape := ⟨2, ![5000, 128]⟩
abbrev S128 : Shape := ⟨1, ![128]⟩
abbrev S2x128 : Shape := ⟨2, ![2, 128]⟩
abbrev S_ : Shape := ⟨0, ![]⟩
abbrev S16x8 : Shape := ⟨2, ![16, 8]⟩
abbrev S8 : Shape := ⟨1, ![8]⟩

abbrev nBuf : Space → Nat
  | .hbm => 29
  | .vmem => 8
  | .smem => 0
  | _ => 0

abbrev bufTy : (tb : Table) → Fin (tcTables nBuf tb) → BufTy
  | .hbm, ⟨0, _⟩ => ⟨S4000000x8, .f32⟩
  | .hbm, ⟨1, _⟩ => ⟨S4000000x8, .f32⟩
  | .hbm, ⟨2, _⟩ => ⟨S2x125000x128, .f32⟩
  | .hbm, ⟨3, _⟩ => ⟨S2x125000x128, .f32⟩
  | .hbm, ⟨4, _⟩ => ⟨S2x1x128, .f32⟩
  | .hbm, ⟨5, _⟩ => ⟨S2x1x128, .f32⟩
  | .hbm, ⟨6, _⟩ => ⟨S2x128, .f32⟩
  | .hbm, ⟨7, _⟩ => ⟨S_, .f32⟩
  | .hbm, ⟨8, _⟩ => ⟨S128, .f32⟩
  | .hbm, ⟨9, _⟩ => ⟨S2x128, .f32⟩
  | .hbm, ⟨10, _⟩ => ⟨S_, .f32⟩
  | .hbm, ⟨11, _⟩ => ⟨S128, .f32⟩
  | .hbm, ⟨12, _⟩ => ⟨S16x8, .f32⟩
  | .hbm, ⟨13, _⟩ => ⟨S_, .f32⟩
  | .hbm, ⟨14, _⟩ => ⟨S8, .f32⟩
  | .hbm, ⟨15, _⟩ => ⟨S16x8, .f32⟩
  | .hbm, ⟨16, _⟩ => ⟨S_, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1x5000x128, .f32⟩
  | .local _ .vmem, ⟨1, _⟩ => ⟨S1x5000x128, .f32⟩
  | .local _ .vmem, ⟨2, _⟩ => ⟨S1x5000x128, .f32⟩
  | .local _ .vmem, ⟨3, _⟩ => ⟨S1x5000x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | _, _ => ⟨S4000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4000000x8_S2x125000x128 : S4000000x8.ShapeCasts S2x125000x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  reduces_S5000x128_S128 : S5000x128.Reduces [0] S128
  shapeCasts_S128_S1x128 : S128.ShapeCasts S1x128
  shapeCasts_S2x1x128_S2x128 : S2x1x128.ShapeCasts S2x128
  reducesTo_S2x128_S128_d0 : S2x128.ReducesTo [0] S128
  h_S_ : 0 < S_.numel
  shapeCasts_S128_S16x8 : S128.ShapeCasts S16x8
  reducesTo_S16x8_S8_d0 : S16x8.ReducesTo [0] S8
  bcast_S_S8 : S_.BroadcastsInDim S8 (![] : Fin 0 → Fin S8.rank)
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S2x125000x128.size a
  hwx0_0 : ∀ i : grid0.Coords, EltTy.bits .f32 = 32 ∨ (Rect.block (s := S2x125000x128) S1x5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x128.size a ≤ S2x125000x128.size a
  hwx0_1 : ∀ i : grid0.Coords, EltTy.bits .f32 = 32 ∨ (Rect.block (s := S2x125000x128) S1x5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_v0) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4000000x8 : Shape := ⟨2, ![4000000, 8]⟩
abbrev S_ : Shape := ⟨0, ![]⟩
abbrev S8 : Shape := ⟨1, ![8]⟩
abbrev S1x8 : Shape := ⟨2, ![1, 8]⟩

abbrev nBuf : Space → Nat
  | .hbm => 37
  | .vmem => 0
  | .smem => 0
  | _ => 0

abbrev bufTy : (tb : Table) → Fin (tcTables nBuf tb) → BufTy
  | .hbm, ⟨0, _⟩ => ⟨S4000000x8, .f32⟩
  | .hbm, ⟨1, _⟩ => ⟨S4000000x8, .f32⟩
  | .hbm, ⟨2, _⟩ => ⟨S_, .f32⟩
  | .hbm, ⟨3, _⟩ => ⟨S4000000x8, .f32⟩
  | .hbm, ⟨4, _⟩ => ⟨S4000000x8, .i1⟩
  | .hbm, ⟨5, _⟩ => ⟨S4000000x8, .f32⟩
  | .hbm, ⟨6, _⟩ => ⟨S_, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S4000000x8, .f32⟩
  | .hbm, ⟨15, _⟩ => ⟨S_, .f32⟩
  | .hbm, ⟨16, _⟩ => ⟨S4000000x8, .f32⟩
  | .hbm, ⟨17, _⟩ => ⟨S4000000x8, .f32⟩
  | .hbm, ⟨18, _⟩ => ⟨S4000000x8, .f32⟩
  | .hbm, ⟨19, _⟩ => ⟨S4000000x8, .f32⟩
  | .hbm, ⟨20, _⟩ => ⟨S_, .f32⟩
  | .hbm, ⟨21, _⟩ => ⟨S4000000x8, .f32⟩
  | .hbm, ⟨22, _⟩ => ⟨S4000000x8, .f32⟩
  | .hbm, ⟨23, _⟩ => ⟨S4000000x8, .f32⟩
  | .hbm, ⟨24, _⟩ => ⟨S_, .f32⟩
  | .hbm, ⟨25, _⟩ => ⟨S4000000x8, .f32⟩
  | .hbm, ⟨26, _⟩ => ⟨S4000000x8, .f32⟩
  | .hbm, ⟨27, _⟩ => ⟨S4000000x8, .f32⟩
  | .hbm, ⟨28, _⟩ => ⟨S4000000x8, .f32⟩
  | .hbm, ⟨29, _⟩ => ⟨S4000000x8, .f32⟩
  | .hbm, ⟨30, _⟩ => ⟨S1x8, .f32⟩
  | .hbm, ⟨31, _⟩ => ⟨S4000000x8, .f32⟩
  | .hbm, ⟨32, _⟩ => ⟨S4000000x8, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S_S4000000x8 : S_.BroadcastsInDim S4000000x8 (![] : Fin 0 → Fin S4000000x8.rank)
  reducesTo_S4000000x8_S8_d0 : S4000000x8.ReducesTo [0] S8
  h_S_ : 0 < S_.numel
  bcast_S_S8 : S_.BroadcastsInDim S8 (![] : Fin 0 → Fin S8.rank)
  bcast_S8_S1x8_1 : S8.BroadcastsInDim S1x8 (![1] : Fin 1 → Fin S1x8.rank)
  bcast_S1x8_S4000000x8_0_1 : S1x8.BroadcastsInDim S4000000x8 (![0, 1] : Fin 2 → Fin S4000000x8.rank)
  reducesTo_S4000000x8_S_d0_1 : S4000000x8.ReducesTo [0, 1] S_

variable [Facts₀]

class Facts : Prop extends Facts₀ where

variable [Facts]
-- ==== Proof.KernelChain.lean ====
/-
  What the kernel's two accumulators hold after each grid point.

  The grid is 2 halves × 25 blocks; point `n` is block `n % 25` of half `n / 25`. At the first block of a half the
  body resets both accumulators to zero and then adds the block's lane sums; at every other block it adds the
  block's lane sums to what the point before left. Read off the frame's found pieces, each case leaves the body's
  own payload terms: the update payloads applied to the reset payloads (first block), or to the previous contents.
  So the contents after point `n` are a recursion over the points (`chain`), which is what the frame's
  point-by-point contents are (`outsAt_eq`).
-/
import proofs.«422197_j59631325938067_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.LossValue

open Cert.KernelIdeal Cert.KernelIdeal.Gen

variable {F : FTy → Type} [FloatOps F]

theorem hz : (![0, 0, 0] : Fin 3 → Nat) = fun _ => 0 := funext fun a => by fin_cases a <;> rfl

/-! ## The four case values -/

/-- A later block: the frequency accumulator gets the update payload over its previous contents. -/
theorem out_B_2 (c : Dev nD) (i : grid0.Coords) (a2 : Memref sig .tc .vmem S1x5000x128 .f32) (h2 : a2.IsWhole)
    (a3 : Memref sig .tc .vmem S1x5000x128 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 x1 : Vec F S1x5000x128 .f32) (xo2 xo3 : Vec F S1x1x128 .f32) :
    out0_B_2 c i a2 h2 a3 h3 a4 h4 a5 h5 hc x0 x1 xo2 xo3 = k0_pay5 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz]
  simp only [View.readAt_eq_ld, h3.read_unread, h4.read_unread, View.ld_unit_zero (S := S1x5000x128) hz,
    View.ld_unit_zero (S := S1x1x128) hz]

/-- A later block: the loss accumulator likewise. -/
theorem out_B_3 (c : Dev nD) (i : grid0.Coords) (a2 : Memref sig .tc .vmem S1x5000x128 .f32) (h2 : a2.IsWhole)
    (a3 : Memref sig .tc .vmem S1x5000x128 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 x1 : Vec F S1x5000x128 .f32) (xo2 xo3 : Vec F S1x1x128 .f32) :
    out0_B_3 c i a2 h2 a3 h3 a4 h4 a5 h5 hc x0 x1 xo2 xo3 = k0_pay1 (k0_pay6 x0 x1 xo3) := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz]
  simp only [View.readAt_eq_ld, h2.read_unread, h3.read_unread, h5.read_unread, View.ld_unit_zero (S := S1x5000x128) hz,
    View.ld_unit_zero (S := S1x1x128) hz]

/-- A half's first block: the reset payload is stored, read back, and updated. -/
theorem out_A_2 (c : Dev nD) (i : grid0.Coords) (a2 : Memref sig .tc .vmem S1x5000x128 .f32) (h2 : a2.IsWhole)
    (a3 : Memref sig .tc .vmem S1x5000x128 .f32) (h3 : a3.IsWhole) (a4 : Memref sig .tc .vmem S1x1x128 .f32) (h4 : a4.IsWhole)
    (a5 : Memref sig .tc .vmem S1x1x128 .f32) (h5 : a5.IsWhole) (hc : cond0_0 i)
    (x0 x1 : Vec F S1x5000x128 .f32) :
    out0_A_2 c i a2 h2 a3 h3 a4 h4 a5 h5 hc x0 x1 = k0_pay5 x1 (k0_pay2 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x128) hz, View.readCov_unit_zero (S := S1x1x128) _ hz]
  simp only [View.readAt_eq_ld, h3.read_unread, View.ld_unit_zero (S := S1x5000x128) hz,
    View.ld_unit_zero (S := S1x1x128) hz]

/-- A half's first block, the loss accumulator. -/
theorem out_A_3 (c : Dev nD) (i : grid0.Coords) (a2 : Memref sig .tc .vmem S1x5000x128 .f32) (h2 : a2.IsWhole)
    (a3 : Memref sig .tc .vmem S1x5000x128 .f32) (h3 : a3.IsWhole) (a4 : Memref sig .tc .vmem S1x1x128 .f32) (h4 : a4.IsWhole)
    (a5 : Memref sig .tc .vmem S1x1x128 .f32) (h5 : a5.IsWhole) (hc : cond0_0 i)
    (x0 x1 : Vec F S1x5000x128 .f32) :
    out0_A_3 c i a2 h2 a3 h3 a4 h4 a5 h5 hc x0 x1 = k0_pay1 (k0_pay6 x0 x1 (k0_pay3 (F := F))) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x128) hz, View.readCov_unit_zero (S := S1x1x128) _ hz]
  simp only [View.readAt_eq_ld, h2.read_unread, h3.read_unread, View.ld_unit_zero (S := S1x5000x128) hz,
    View.ld_unit_zero (S := S1x1x128) hz]

/-! ## The accumulation, point by point -/

variable (m : (ℓ : Loc nD τ sig) → Buf (Elt F) ℓ)

/-- The block of probabilities, and the block of targets, the body sees at point `t`. -/
abbrev pblk (c : Dev nD) (t : Fin cfg0.N) : Vec F S1x5000x128 .f32 := iblk m c 0 t
abbrev tblk (c : Dev nD) (t : Fin cfg0.N) : Vec F S1x5000x128 .f32 := iblk m c 1 t

/-- The two accumulators after point `n`: reset-then-update at the first block of a half, update of the previous
    contents elsewhere. -/
def chain (c : Dev nD) : (n : ℕ) → n < cfg0.N → Vec F S1x1x128 .f32 × Vec F S1x1x128 .f32
  | 0, h => (k0_pay5 (tblk m c ⟨0, h⟩) (k0_pay2 (F := F)),
      k0_pay1 (k0_pay6 (pblk m c ⟨0, h⟩) (tblk m c ⟨0, h⟩) (k0_pay3 (F := F))))
  | n + 1, h =>
    if (n + 1) % 25 = 0 then
      (k0_pay5 (tblk m c ⟨n + 1, h⟩) (k0_pay2 (F := F)),
        k0_pay1 (k0_pay6 (pblk m c ⟨n + 1, h⟩) (tblk m c ⟨n + 1, h⟩) (k0_pay3 (F := F))))
    else
      (k0_pay5 (tblk m c ⟨n + 1, h⟩) (chain c n (Nat.lt_of_succ_lt h)).1,
        k0_pay1 (k0_pay6 (pblk m c ⟨n + 1, h⟩) (tblk m c ⟨n + 1, h⟩) (chain c n (Nat.lt_of_succ_lt h)).2))

/-- The frame's contents after point `n` are that recursion: by induction on the point. -/
theorem outsAt_eq (c : Dev nD) : ∀ (n : ℕ) (h : n < cfg0.N), outsAt0 m c n h = chain m c n h
  | 0, h => by
    rw [outsAt0_A m c ⟨0, h⟩ rfl, out_A_2, out_A_3]
    rfl
  | n + 1, h => by
    by_cases h0 : (n + 1) % 25 = 0
    · rw [outsAt0_A m c ⟨n + 1, h⟩ h0, out_A_2, out_A_3]
      show _ = (if (n + 1) % 25 = 0 then _ else _)
      rw [if_pos h0]
    · rw [outsAt0_B m c ⟨n + 1, h⟩ h0, out_B_2, out_B_3]
      show (k0_pay5 _ (outsAt0 m c n _).1, k0_pay1 (k0_pay6 _ _ (outsAt0 m c n _).2)) = (if (n + 1) % 25 = 0 then _ else _)
      rw [if_neg h0, outsAt_eq c n]

end Cert.KernelIdeal.LossValue

end
-- ==== Proof.Loss.lean ====
/-
  The inverse-class-frequency weighted binary cross entropy, as ONE closed function of the two argument arrays
  over the extended reals: probabilities `x0` and 0/1 targets `x1`, both of shape [4000000, 8].

  For a class `j` (a column) the class frequency is the column sum of the targets, its weight the reciprocal of
  that frequency plus a small constant, and each element contributes its clamped negative log-likelihood
  `-max (log q) (-100)`, where `q` is the probability the model gave to the element's own label: `p` where the
  target is one, `1 - p` elsewhere. The loss is the weighted sum of the column sums of those contributions,
  divided by the element count.
-/
import Idealize.ShloMosaic.PureOps.Ideal
import Idealize.ShloMosaic.PureOps.Ideal.Laws
import Idealize.ShloMosaic.Lib.ValueIdx

noncomputable section

open scoped BigOperators

namespace Cert.Loss

open Idealize.ShloMosaic Idealize.ShloMosaic.ValueIdx

/-- The shape of both arguments: 4000000 rows of 8 classes. -/
abbrev SIn : Shape := ⟨2, ![4000000, 8]⟩

/-- The float words both programs carry, read at the extended reals: one, the clamp `-100`, the frequency
    offset `0.001` as rounded to f32, and the element count `3.2e7`. -/
abbrev oneW : EReal := Ideal.ofBits .f32 0x3F800000#32
abbrev clampW : EReal := Ideal.ofBits .f32 0xC2C80000#32
abbrev epsW : EReal := Ideal.ofBits .f32 0x3A83126F#32
abbrev cntW : EReal := Ideal.ofBits .f32 0x4BF42400#32

/-- One element's contribution: the clamped negative log of the probability given to its own label. -/
def elem (p t : EReal) : EReal := 0 - max (Ideal.log (if t = oneW then p else oneW - p)) clampW

/-- Class `j`'s frequency: the sum of its column of targets. -/
def colT (x1 : SIn.Idx → EReal) (j : Fin 8) : EReal := ∑ i : Fin 4000000, x1 (ix2 i j)

/-- Class `j`'s summed contributions. -/
def colE (x0 x1 : SIn.Idx → EReal) (j : Fin 8) : EReal := ∑ i : Fin 4000000, elem (x0 (ix2 i j)) (x1 (ix2 i j))

/-- Class `j`'s weight: one over its frequency plus the offset. -/
def weight (x1 : SIn.Idx → EReal) (j : Fin 8) : EReal := Ideal.div oneW (colT x1 j + epsW)

/-- The loss. -/
def loss (x0 x1 : SIn.Idx → EReal) : EReal := Ideal.div (∑ j : Fin 8, weight x1 j * colE x0 x1 j) cntW

/-- The word `0x3F800000` is the number one. -/
theorem oneW_eq : oneW = 1 := by
  simp [oneW, Ideal.ofBits, Ideal.ieee]
  rw [← EReal.coe_mul, ← EReal.coe_one]
  congr 1
  norm_num

/-- Lane `8 g + j` of the 128 lanes holds class `j` of the `g`-th of the 16 rows laid side by side. -/
def lane (g : Fin 16) (j : Fin 8) : Fin 128 :=
  ⟨8 * g.val + j.val, by have := g.isLt; have := j.isLt; omega⟩

/-- Row `rowOf g c r s` of the [4000000, 8] arrays is the row that lands in lane group `g` (of 16) of row
    `5000 r + s` of half `c` when the arrays are laid out as [2, 125000, 128]: 128 lanes hold 16 consecutive
    rows of 8 classes. -/
def rowOf (g : Fin 16) (c : Fin 2) (r : Fin 25) (s : Fin 5000) : Fin 4000000 :=
  ⟨(c.val * 125000 + (5000 * r.val + s.val)) * 16 + g.val, by
    have := g.isLt; have := c.isLt; have := r.isLt; have := s.isLt; omega⟩

end Cert.Loss

end
-- ==== Proof.KernelSums.lean ====
/-
  The accumulators' contents as sums, over the extended reals.

  Read at lane `l`, the update payload adds to the previous contents the sum over the block's 5000 rows of the
  targets in that lane (for the frequency accumulator), or of the per-element contributions `Cert.Loss.elem p t`
  (for the loss accumulator); the reset payloads are zero. So after point `n` lane `l` of each accumulator holds
  the sum of the block lane sums of the points since the half's first block: points `n - n % 25, …, n`.
-/
import proofs.«422197_j59631325938067_3_alg».proof.Proof.KernelChain
import proofs.«422197_j59631325938067_3_alg».proof.Proof.Loss
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.LossValue

open Cert.KernelIdeal Cert.KernelIdeal.Gen

/-! ## The payloads at a lane -/

/-- The sum over the rows of a [5000, 128] array, at lane `l`. -/
theorem laneSum_apply (src : FVec Ideal S5000x128 .f32) (l : Fin 128) :
    multiReduction .add [0] S128 src 0x00000000#32 reduces_S5000x128_S128 (.inl rfl) rfl (ix1 l)
      = ∑ k : Fin 5000, src (ix2 k l) := by
  refine (Ideal.multiReduction_add_single src 0x00000000#32 reduces_S5000x128_S128 (.inl rfl) rfl (ix1 l)).trans ?_
  exact Finset.sum_congr rfl fun k _ => congrArg src (funext fun a => by
    match a with
    | ⟨0, _⟩ => rfl
    | ⟨1, _⟩ => rfl)

/-- The select on "the target is one" is the `if`, and the zero word is zero: one row's term is the element's
    contribution. -/
theorem elem_of_select (p t : EReal) :
    (0 : EReal) - max (Ideal.log (Scalar.select (Ideal.cmp .oeq t Cert.Loss.oneW) p (Cert.Loss.oneW - p))) Cert.Loss.clampW
      = Cert.Loss.elem p t := by
  unfold Cert.Loss.elem
  by_cases h : t = Cert.Loss.oneW
  · rw [if_pos h]
    have : Ideal.cmp .oeq t Cert.Loss.oneW = 1#1 := by simp [Ideal.cmp, h]
    rw [this, select_one]
  · rw [if_neg h]
    have : Ideal.cmp .oeq t Cert.Loss.oneW = 0#1 := by simp [Ideal.cmp, h]
    rw [this, select_zero]

/-- The reset payloads are zero. -/
theorem pay2_apply (u v : Fin 1) (l : Fin 128) : k0_pay2 (F := Ideal) (ix3 u v l) = 0 := by
  unfold k0_pay2
  refine (shapeCast_ab_1ab_apply _ _ u v l).trans ?_
  exact Ideal.ofBits_zero_f32
theorem pay3_apply (u v : Fin 1) (l : Fin 128) : k0_pay3 (F := Ideal) (ix3 u v l) = 0 := by
  unfold k0_pay3
  refine (shapeCast_ab_1ab_apply _ _ u v l).trans ?_
  exact Ideal.ofBits_zero_f32

/-- The frequency update at lane `l`: the previous contents plus the block's column of targets summed. -/
theorem pay5_apply (x1 : Vec Ideal S1x5000x128 .f32) (xo : Vec Ideal S1x1x128 .f32) (u v : Fin 1) (l : Fin 128) :
    k0_pay5 (F := Ideal) x1 xo (ix3 u v l) = xo (ix3 0 v l) + ∑ k : Fin 5000, x1 (ix3 0 k l) := by
  unfold k0_pay5 k0_pay4
  refine (shapeCast_ab_1ab_apply _ _ u v l).trans ?_
  refine (addf_apply _ _ _).trans ?_
  refine congrArg₂ (· + ·) (shapeCast_1ab_ab_apply xo _ v l) ?_
  refine (shapeCast_a_1a_apply _ _ v l).trans ?_
  refine (laneSum_apply _ l).trans ?_
  exact Finset.sum_congr rfl fun k _ => shapeCast_1ab_ab_apply x1 _ k l

/-- The loss update at lane `l`: the previous contents plus the block's column of contributions summed. -/
theorem pay16_apply (x0 x1 : Vec Ideal S1x5000x128 .f32) (xo : Vec Ideal S1x1x128 .f32) (u v : Fin 1) (l : Fin 128) :
    k0_pay1 (F := Ideal) (k0_pay6 x0 x1 xo) (ix3 u v l)
      = xo (ix3 0 v l) + ∑ k : Fin 5000, Cert.Loss.elem (x0 (ix3 0 k l)) (x1 (ix3 0 k l)) := by
  unfold k0_pay1 k0_pay6 k0_pay4
  refine (shapeCast_ab_1ab_apply _ _ u v l).trans ?_
  refine (addf_apply _ _ _).trans ?_
  refine congrArg₂ (· + ·) (shapeCast_1ab_ab_apply xo _ v l) ?_
  refine (shapeCast_a_1a_apply _ _ v l).trans ?_
  refine (laneSum_apply _ l).trans ?_
  refine Finset.sum_congr rfl fun k _ => ?_
  show (Ideal.ofBits .f32 0x00000000#32 : EReal)
      - max (Ideal.log (Scalar.select
          (Ideal.cmp .oeq (shapeCast S5000x128 x1 shapeCasts_S1x5000x128_S5000x128 (ix2 k l)) (Ideal.ofBits .f32 0x3F800000#32))
          (shapeCast S5000x128 x0 shapeCasts_S1x5000x128_S5000x128 (ix2 k l))
          (Ideal.ofBits .f32 0x3F800000#32 - shapeCast S5000x128 x0 shapeCasts_S1x5000x128_S5000x128 (ix2 k l))))
        (Ideal.ofBits .f32 0xC2C80000#32) = _
  rw [shapeCast_1ab_ab_apply x1, shapeCast_1ab_ab_apply x0, Ideal.ofBits_zero_f32]
  exact elem_of_select _ _

/-! ## The accumulation as sums -/

variable (m : (ℓ : Loc nD τ sig) → Buf (Elt Ideal) ℓ)

/-- Lane `l` of the column sums of the block of targets at point `n` (zero past the grid). -/
def blkT (c : Dev nD) (l : Fin 128) (n : ℕ) : EReal :=
  if h : n < cfg0.N then ∑ k : Fin 5000, tblk m c ⟨n, h⟩ (ix3 0 k l) else 0

/-- Lane `l` of the column sums of the block of contributions at point `n` (zero past the grid). -/
def blkE (c : Dev nD) (l : Fin 128) (n : ℕ) : EReal :=
  if h : n < cfg0.N then ∑ k : Fin 5000, Cert.Loss.elem (pblk m c ⟨n, h⟩ (ix3 0 k l)) (tblk m c ⟨n, h⟩ (ix3 0 k l)) else 0

/-- After point `n`, lane `l` of each accumulator is the sum of the block lane sums of points `n - n % 25` to `n`:
    by induction on the point — a half's first block starts the sum afresh (zero plus its lane sum), any other
    block adds its lane sum to the sum so far. -/
theorem chain_apply (c : Dev nD) (l : Fin 128) : ∀ (n : ℕ) (h : n < cfg0.N),
    (chain m c n h).1 (ix3 0 0 l) = ∑ r ∈ Finset.range (n % 25 + 1), blkT m c l (n - n % 25 + r)
    ∧ (chain m c n h).2 (ix3 0 0 l) = ∑ r ∈ Finset.range (n % 25 + 1), blkE m c l (n - n % 25 + r)
  | 0, h => by
    refine ⟨?_, ?_⟩
    · show k0_pay5 (F := Ideal) (tblk m c ⟨0, h⟩) (k0_pay2 (F := Ideal)) (ix3 0 0 l) = _
      rw [pay5_apply, pay2_apply, zero_add]
      simp only [Nat.zero_mod, Nat.zero_add, Nat.sub_self, Nat.add_zero, Finset.sum_range_one, blkT, dif_pos h]
    · show k0_pay1 (F := Ideal) (k0_pay6 (pblk m c ⟨0, h⟩) (tblk m c ⟨0, h⟩) (k0_pay3 (F := Ideal))) (ix3 0 0 l) = _
      rw [pay16_apply, pay3_apply, zero_add]
      simp only [Nat.zero_mod, Nat.zero_add, Nat.sub_self, Nat.add_zero, Finset.sum_range_one, blkE, dif_pos h]
  | n + 1, h => by
    by_cases h0 : (n + 1) % 25 = 0
    · have e : chain m c (n + 1) h
          = (k0_pay5 (tblk m c ⟨n + 1, h⟩) (k0_pay2 (F := Ideal)),
            k0_pay1 (k0_pay6 (pblk m c ⟨n + 1, h⟩) (tblk m c ⟨n + 1, h⟩) (k0_pay3 (F := Ideal)))) := by
        show (if (n + 1) % 25 = 0 then _ else _) = _
        rw [if_pos h0]
      rw [e, h0]
      refine ⟨?_, ?_⟩
      · show k0_pay5 (F := Ideal) (tblk m c ⟨n + 1, h⟩) (k0_pay2 (F := Ideal)) (ix3 0 0 l) = _
        rw [pay5_apply, pay2_apply, zero_add]
        simp only [Nat.zero_add, Finset.sum_range_one, Nat.sub_zero, Nat.add_zero, blkT, dif_pos h]
      · show k0_pay1 (F := Ideal) (k0_pay6 (pblk m c ⟨n + 1, h⟩) (tblk m c ⟨n + 1, h⟩) (k0_pay3 (F := Ideal))) (ix3 0 0 l) = _
        rw [pay16_apply, pay3_apply, zero_add]
        simp only [Nat.zero_add, Finset.sum_range_one, Nat.sub_zero, Nat.add_zero, blkE, dif_pos h]
    · have e : chain m c (n + 1) h
          = (k0_pay5 (tblk m c ⟨n + 1, h⟩) (chain m c n (Nat.lt_of_succ_lt h)).1,
            k0_pay1 (k0_pay6 (pblk m c ⟨n + 1, h⟩) (tblk m c ⟨n + 1, h⟩) (chain m c n (Nat.lt_of_succ_lt h)).2)) := by
        show (if (n + 1) % 25 = 0 then _ else _) = _
        rw [if_neg h0]
      obtain ⟨ih1, ih2⟩ := chain_apply c l n (Nat.lt_of_succ_lt h)
      have hq : (n + 1) % 25 = n % 25 + 1 := by omega
      have hb : n + 1 - (n % 25 + 1) = n - n % 25 := by omega
      have hl : n - n % 25 + (n % 25 + 1) = n + 1 := by have := Nat.mod_le n 25; omega
      rw [e, hq, hb]
      refine ⟨?_, ?_⟩
      · show k0_pay5 (F := Ideal) (tblk m c ⟨n + 1, h⟩) (chain m c n (Nat.lt_of_succ_lt h)).1 (ix3 0 0 l) = _
        rw [pay5_apply, ih1, Finset.sum_range_succ _ (n % 25 + 1), hl]
        simp only [blkT, dif_pos h]
      · show k0_pay1 (F := Ideal) (k0_pay6 (pblk m c ⟨n + 1, h⟩) (tblk m c ⟨n + 1, h⟩) (chain m c n (Nat.lt_of_succ_lt h)).2) (ix3 0 0 l) = _
        rw [pay16_apply, ih2, Finset.sum_range_succ _ (n % 25 + 1), hl]
        simp only [blkE, dif_pos h]

end Cert.KernelIdeal.LossValue

end
-- ==== Proof.KernelArrays.lean ====
/-
  The two accumulator arrays after the kernel's call.

  Each [2, 1, 128] array has one block per half; a half's block is written back once, after the half's last grid
  point (points 24 and 49), and then holds, in lane `l`, the sum over the half's 25 blocks of that block's lane sum.
  The two written-back blocks cover the array, so the array ends holding exactly those sums.
-/
import proofs.«422197_j59631325938067_3_alg».proof.Proof.KernelSums
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.LossValue

open Cert.KernelIdeal Cert.KernelIdeal.Gen

variable (m : (ℓ : Loc nD τ sig) → Buf (Elt Ideal) ℓ)

/-- The frequency array the call leaves: entry (c', 0, l) is the sum of lane `l` of the target blocks' column sums
    over the 25 blocks of half c'. -/
def freqArr (c : Dev nD) : Vec Ideal S2x1x128 .f32 :=
  fun i => ∑ r ∈ Finset.range 25, blkT m c ⟨(i 2).val, (i 2).isLt⟩ (25 * (i 0).val + r)

/-- The loss array the call leaves, likewise. -/
def lossArr (c : Dev nD) : Vec Ideal S2x1x128 .f32 :=
  fun i => ∑ r ∈ Finset.range 25, blkE m c ⟨(i 2).val, (i 2).isLt⟩ (25 * (i 0).val + r)

/-- The accumulators at any index of their [1, 1, 128] block (its first two coordinates are zero). -/
theorem chain_apply' (c : Dev nD) (n : ℕ) (h : n < cfg0.N) (y : S1x1x128.Idx) :
    (chain m c n h).1 y = ∑ r ∈ Finset.range (n % 25 + 1), blkT m c ⟨(y 2).val, (y 2).isLt⟩ (n - n % 25 + r)
    ∧ (chain m c n h).2 y = ∑ r ∈ Finset.range (n % 25 + 1), blkE m c ⟨(y 2).val, (y 2).isLt⟩ (n - n % 25 + r) := by
  obtain ⟨u, v, l, rfl⟩ : ∃ (u v : Fin 1) (l : Fin 128), y = ix3 u v l := ⟨y 0, y 1, y 2, eq_ix3 y⟩
  obtain rfl : u = 0 := Subsingleton.elim _ _
  obtain rfl : v = 0 := Subsingleton.elim _ _
  exact chain_apply m c l n h

/-- The printed index map of both outputs, decided over the grid: the block of half `t / 25`. -/
theorem idx_out : ∀ t : Fin cfg0.N, win0_2.index t (0 : Fin 3) = t.val / 25 ∧ win0_2.index t (1 : Fin 3) = 0
    ∧ win0_2.index t (2 : Fin 3) = 0 ∧ win0_3.index t (0 : Fin 3) = t.val / 25 ∧ win0_3.index t (1 : Fin 3) = 0
    ∧ win0_3.index t (2 : Fin 3) = 0 :=
  (by decide +kernel : ∀ t : Fin grid0.N, _)

/-- What a half's last point writes back into the frequency array is its block of `freqArr`. -/
theorem flushed2_eq (c : Dev nD) (t : Fin cfg0.N) (hf : (cfg0.win 2).flush t = true) :
    (dats m 0 c).flushed 2 t = ((cfg0.win 2).blk t).view.read (Elt Ideal) (freqArr m c) := by
  have h24 : t.val % 25 = 24 := (flush0_2 t).mp hf
  obtain ⟨e0, e1, e2, -, -, -⟩ := idx_out t
  show (cfg0.win 2).cut (grid0.coords t) ((dats m 0 c).after 2 t) = _
  rw [after0_2, outsAt_eq]
  funext j
  show (chain m c t.val t.isLt).1 j = freqArr m c (((cfg0.win 2).blk t).view.emb j)
  refine ((chain_apply' m c t.val t.isLt j).1).trans ?_
  have hj0 : (j 0).val < 1 := (j 0).isLt
  have c0 : ((((cfg0.win 2).blk t).view.emb j) 0).val = t.val / 25 := by
    show win0_2.index t (0 : Fin 3) * 1 + 1 * (j 0).val = _; omega
  have c2 : ((((cfg0.win 2).blk t).view.emb j) 2).val = (j 2).val := by
    show win0_2.index t (2 : Fin 3) * 128 + 1 * (j 2).val = _; omega
  have hb : t.val - 24 = 25 * (t.val / 25) := by omega
  rw [h24, hb]
  unfold freqArr
  exact Finset.sum_congr rfl fun r _ => congrArg₂ (blkT m c) (Fin.ext c2.symm) (by rw [c0])

/-- The same for the loss array. -/
theorem flushed3_eq (c : Dev nD) (t : Fin cfg0.N) (hf : (cfg0.win 3).flush t = true) :
    (dats m 0 c).flushed 3 t = ((cfg0.win 3).blk t).view.read (Elt Ideal) (lossArr m c) := by
  have h24 : t.val % 25 = 24 := (flush0_3 t).mp hf
  obtain ⟨-, -, -, e0, e1, e2⟩ := idx_out t
  show (cfg0.win 3).cut (grid0.coords t) ((dats m 0 c).after 3 t) = _
  rw [after0_3, outsAt_eq]
  funext j
  show (chain m c t.val t.isLt).2 j = lossArr m c (((cfg0.win 3).blk t).view.emb j)
  refine ((chain_apply' m c t.val t.isLt j).2).trans ?_
  have hj0 : (j 0).val < 1 := (j 0).isLt
  have c0 : ((((cfg0.win 3).blk t).view.emb j) 0).val = t.val / 25 := by
    show win0_3.index t (0 : Fin 3) * 1 + 1 * (j 0).val = _; omega
  have c2 : ((((cfg0.win 3).blk t).view.emb j) 2).val = (j 2).val := by
    show win0_3.index t (2 : Fin 3) * 128 + 1 * (j 2).val = _; omega
  have hb : t.val - 24 = 25 * (t.val / 25) := by omega
  rw [h24, hb]
  unfold lossArr
  exact Finset.sum_congr rfl fun r _ => congrArg₂ (blkE m c) (Fin.ext c2.symm) (by rw [c0])

/-- Every index of a [2, 1, 128] output array lies in the block its half's last point writes back. -/
theorem cover2 (i : S2x1x128.Idx) :
    ∃ t : Fin cfg0.N, (cfg0.win 2).flush t = true ∧ i ∈ ((cfg0.win 2).blk t).view.set := by
  have hN : grid0.N = 50 := N_0
  have hi0 : (i 0).val < 2 := (i 0).isLt
  have hi1 : (i 1).val < 1 := (i 1).isLt
  have hi2 : (i 2).val < 128 := (i 2).isLt
  obtain ⟨t, ht⟩ : ∃ t : Fin cfg0.N, t.val = 25 * (i 0).val + 24 :=
    ⟨⟨25 * (i 0).val + 24, by show _ < grid0.N; omega⟩, rfl⟩
  obtain ⟨e0, e1, e2, -, -, -⟩ := idx_out t
  refine ⟨t, (flush0_2 t).mpr (by omega), ?_⟩
  show i ∈ ((View.whole main_v2_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 128 ≤ (i 2).val ∧ (i 2).val < win0_2.index t (2 : Fin 3) * 128 + 128
    omega

theorem cover3 (i : S2x1x128.Idx) :
    ∃ t : Fin cfg0.N, (cfg0.win 3).flush t = true ∧ i ∈ ((cfg0.win 3).blk t).view.set := by
  have hN : grid0.N = 50 := N_0
  have hi0 : (i 0).val < 2 := (i 0).isLt
  have hi1 : (i 1).val < 1 := (i 1).isLt
  have hi2 : (i 2).val < 128 := (i 2).isLt
  obtain ⟨t, ht⟩ : ∃ t : Fin cfg0.N, t.val = 25 * (i 0).val + 24 :=
    ⟨⟨25 * (i 0).val + 24, by show _ < grid0.N; omega⟩, rfl⟩
  obtain ⟨-, -, -, e0, e1, e2⟩ := idx_out t
  refine ⟨t, (flush0_3 t).mpr (by omega), ?_⟩
  show i ∈ ((View.whole main_v2_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 128 ≤ (i 2).val ∧ (i 2).val < win0_3.index t (2 : Fin 3) * 128 + 128
    omega

/-- So the two arrays end holding the half sums. -/
theorem final2 (c : Dev nD) : (dats m 0 c).arrAt 2 cfg0.N = freqArr m c :=
  (dats m 0 c).arrAt_eq_of_cover 2 (freqArr m c) (flushed2_eq m c) cover2
theorem final3 (c : Dev nD) : (dats m 0 c).arrAt 3 cfg0.N = lossArr m c :=
  (dats m 0 c).arrAt_eq_of_cover 3 (lossArr m c) (flushed3_eq m c) cover3

end Cert.KernelIdeal.LossValue

end
-- ==== Proof.SumLaws.lean ====
/-
  Two laws of finite sums the comparison of the two programs rests on.
-/
import proofs.«422197_j59631325938067_3_alg».proof.Proof.Loss

noncomputable section

open scoped BigOperators

namespace Cert.Loss

open Idealize.ShloMosaic Idealize.ShloMosaic.ValueIdx

/-- A row number below 4000000 has unique mixed-radix digits: its remainder by 16 (the lane group), and of the
    quotient `n` by 16 the quotient by 125000 (the half), and of `n`'s remainder by 125000 the quotient and the
    remainder by 5000 (the block and the row inside the block). `rowOf` reassembles the row from those digits. -/
def tileEquiv : Fin 16 × Fin 2 × Fin 25 × Fin 5000 ≃ Fin 4000000 where
  toFun p := rowOf p.1 p.2.1 p.2.2.1 p.2.2.2
  invFun i :=
    (⟨i.val % 16, by omega⟩,
     ⟨i.val / 16 / 125000, by have := i.isLt; omega⟩,
     ⟨i.val / 16 % 125000 / 5000, by omega⟩,
     ⟨i.val / 16 % 125000 % 5000, by omega⟩)
  left_inv := by
    rintro ⟨g, c, r, s⟩
    have := g.isLt; have := c.isLt; have := r.isLt; have := s.isLt
    refine Prod.ext (Fin.ext ?_) (Prod.ext (Fin.ext ?_) (Prod.ext (Fin.ext ?_) (Fin.ext ?_)))
    all_goals (simp only [rowOf]; omega)
  right_inv := by
    intro i
    have := i.isLt
    refine Fin.ext ?_
    simp only [rowOf]
    omega

/-- Summing over the 16 lane groups, the 2 halves, the 25 blocks of a half and the 5000 rows of a block visits
    every one of the 4000000 rows exactly once. -/
theorem sum_tiles {M : Type*} [AddCommMonoid M] (f : Fin 4000000 → M) :
    ∑ g : Fin 16, ∑ c : Fin 2, ∑ r : Fin 25, ∑ s : Fin 5000, f (rowOf g c r s) = ∑ i : Fin 4000000, f i := by
  rw [← Equiv.sum_comp tileEquiv f]
  simp only [Fintype.sum_prod_type]
  rfl

/-- The inclusion of the reals in the extended reals carries a finite sum to the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real weights and real contributions, weighting every element by its class's weight and summing over the
    whole array is weighting each class's column sum and summing over the classes. -/
theorem sum_weighted (W : Fin 8 → EReal) (e : SIn.Idx → EReal)
    (hW : ∀ j, ∃ r : ℝ, W j = (r : EReal)) (he : ∀ i, ∃ r : ℝ, e i = (r : EReal)) :
    ∑ i : SIn.Idx, e i * W ⟨(i 1).val, (i 1).isLt⟩ = ∑ j : Fin 8, W j * ∑ k : Fin 4000000, e (ix2 k j) := by
  choose w hw using hW
  choose r hr using he
  rw [sum_idx2, Finset.sum_comm]
  refine Finset.sum_congr rfl fun j _ => ?_
  -- in column `j` every summand is the real product `w j * r`, so the factor `w j` leaves the sum in ℝ
  have h1 : ∀ a : Fin 4000000,
      e (ix2 a j) * W ⟨((ix2 a j : SIn.Idx) 1).val, ((ix2 a j : SIn.Idx) 1).isLt⟩
        = ((w j * r (ix2 a j) : ℝ) : EReal) := by
    intro a
    show e (ix2 a j) * W j = _
    rw [hw, hr, ← EReal.coe_mul, mul_comm]
  rw [Finset.sum_congr rfl (fun a _ => h1 a), ← coe_sum, ← Finset.mul_sum, EReal.coe_mul, coe_sum, hw]
  exact congrArg _ (Finset.sum_congr rfl fun k _ => (hr _).symm)

end Cert.Loss

end
-- ==== Proof.KernelBlocks.lean ====
/-
  A block's lane sums, read back to rows of the two argument arrays.
-/
import proofs.«422197_j59631325938067_3_alg».proof.Proof.KernelSums
import proofs.«422197_j59631325938067_3_alg».proof.Proof.SumLaws
import Idealize.ShloMosaic.Lib.StableHlo.Run

set_option maxRecDepth 16384

noncomputable section

open scoped BigOperators
open Idealize.ShloMosaic Idealize.ShloMosaic.TcCoe Idealize.SL.Sem Idealize.ShloMosaic.ValueIdx

namespace Cert.KernelIdeal.LossValue

open Cert.KernelIdeal Cert.KernelIdeal.Gen

variable (m : (ℓ : Loc nD τ sig) → Buf (Elt Ideal) ℓ)

/-- The two argument arrays as launched: the probabilities and the targets. -/
abbrev argP (c : Dev nD) : Vec Ideal S4000000x8 .f32 := m ((c : Thread nD τ).loc main_arg0)
abbrev argT (c : Dev nD) : Vec Ideal S4000000x8 .f32 := m ((c : Thread nD τ).loc main_arg1)

/-! ## The windows' index maps -/

/-- At point `t` both input windows sit at block `(t / 25, t % 25, 0)` of the [2, 125000, 128] layout: decided
    over the 50 points of the grid. -/
theorem idx0 : ∀ t : Fin cfg0.N, win0_0.index t 0 = t.val / 25 ∧ win0_0.index t 1 = t.val % 25 ∧ win0_0.index t 2 = 0 :=
  (by decide +kernel : ∀ t : Fin grid0.N, _)
theorem idx1 : ∀ t : Fin cfg0.N, win0_1.index t 0 = t.val / 25 ∧ win0_1.index t 1 = t.val % 25 ∧ win0_1.index t 2 = 0 :=
  (by decide +kernel : ∀ t : Fin grid0.N, _)

/-! ## A block's element in the laid-out array -/

/-- Element `(0, k, l)` of the target block at point `t` is element `(t / 25, 5000 (t % 25) + k, l)` of the
    laid-out targets: the block's offset on each axis is its index there times the block's extent. -/
theorem tblk_apply (c : Dev nD) (t : Fin cfg0.N) (k : Fin 5000) (l : Fin 128) (a : Fin 2) (b : Fin 125000)
    (ha : a.val = t.val / 25) (hb : b.val = 5000 * (t.val % 25) + k.val) :
    tblk m c t (ix3 0 k l) = V m c main_v1 (ix3 a b l) := by
  have hi := idx1 t
  show ((cfg0.win 1).blk t).view.read (Elt Ideal) (V m c (Pipeline.arrRef spec0 1)) (ix3 0 k l) = _
  rw [View.read_apply]
  show V m c main_v1 _ = V m c main_v1 _
  congr 1
  funext a'
  apply Fin.ext
  match a' with
  | ⟨0, _⟩ => show win0_1.index t 0 * 1 + 1 * 0 = a.val; rw [hi.1]; omega
  | ⟨1, _⟩ => show win0_1.index t 1 * 5000 + 1 * k.val = b.val; rw [hi.2.1]; omega
  | ⟨2, _⟩ => show win0_1.index t 2 * 128 + 1 * l.val = l.val; rw [hi.2.2]; omega

/-- The same for the probability block. -/
theorem pblk_apply (c : Dev nD) (t : Fin cfg0.N) (k : Fin 5000) (l : Fin 128) (a : Fin 2) (b : Fin 125000)
    (ha : a.val = t.val / 25) (hb : b.val = 5000 * (t.val % 25) + k.val) :
    pblk m c t (ix3 0 k l) = V m c main_v0 (ix3 a b l) := by
  have hi := idx0 t
  show ((cfg0.win 0).blk t).view.read (Elt Ideal) (V m c (Pipeline.arrRef spec0 0)) (ix3 0 k l) = _
  rw [View.read_apply]
  show V m c main_v0 _ = V m c main_v0 _
  congr 1
  funext a'
  apply Fin.ext
  match a' with
  | ⟨0, _⟩ => show win0_0.index t 0 * 1 + 1 * 0 = a.val; rw [hi.1]; omega
  | ⟨1, _⟩ => show win0_0.index t 1 * 5000 + 1 * k.val = b.val; rw [hi.2.1]; omega
  | ⟨2, _⟩ => show win0_0.index t 2 * 128 + 1 * l.val = l.val; rw [hi.2.2]; omega

/-! ## The laid-out arrays are the arguments, reshaped -/

/-- The two host operations before the call reshape each argument to [2, 125000, 128]; that is what the call finds. -/
theorem V_v0 (c : Dev nD) : (V m c main_v0 : S2x125000x128.Idx → EReal)
    = shapeCast S2x125000x128 (m ((c : Thread nD τ).loc main_arg0)) shapeCasts_S4000000x8_S2x125000x128 := by
  show StableHlo.after hostOps0 (fun b => m (c, b)) (Proc.devRef .tc main_v0) = _
  after_results
  rfl
theorem V_v1 (c : Dev nD) : (V m c main_v1 : S2x125000x128.Idx → EReal)
    = shapeCast S2x125000x128 (m ((c : Thread nD τ).loc main_arg1)) shapeCasts_S4000000x8_S2x125000x128 := by
  show StableHlo.after hostOps0 (fun b => m (c, b)) (Proc.devRef .tc main_v1) = _
  after_results
  rfl

/-- Position `(c', 5000 r + k, 8 g + j)` of the [2, 125000, 128] layout and position `(rowOf g c' r k, j)` of the
    [4000000, 8] array are one row-major position:
    `((c' * 125000 + (5000 r + k)) * 16 + g) * 8 + j = (c' * 125000 + (5000 r + k)) * 128 + (8 g + j)`. -/
theorem reshape_at (x : S4000000x8.Idx → EReal) (g : Fin 16) (j : Fin 8) (c' : Fin 2) (r : Fin 25) (k : Fin 5000)
    (b : Fin 125000) (hb : b.val = 5000 * r.val + k.val) :
    shapeCast S2x125000x128 x shapeCasts_S4000000x8_S2x125000x128 (ix3 c' b (Cert.Loss.lane g j))
      = x (ix2 (Cert.Loss.rowOf g c' r k) j) := by
  refine shapeCast_apply x _ _ _ ?_
  rw [Shape.rowMajor_val_two, Shape.rowMajor_val_three]
  show (Cert.Loss.rowOf g c' r k).val * 8 + j.val = (c'.val * 125000 + b.val) * 128 + (Cert.Loss.lane g j).val
  simp only [Cert.Loss.rowOf, Cert.Loss.lane]
  omega

/-! ## A block's element in the argument -/

/-- Element `(0, k, 8 g + j)` of the target block at point `25 c' + r` is class `j` of row `rowOf g c' r k` of
    the targets. -/
theorem tblk_row (c : Dev nD) (g : Fin 16) (j : Fin 8) (c' : Fin 2) (r : Fin 25)
    (h : 25 * c'.val + r.val < cfg0.N) (k : Fin 5000) :
    tblk m c ⟨25 * c'.val + r.val, h⟩ (ix3 0 k (Cert.Loss.lane g j))
      = argT m c (ix2 (Cert.Loss.rowOf g c' r k) j) := by
  have hc := c'.isLt
  have hr := r.isLt
  have hk := k.isLt
  refine (tblk_apply m c ⟨25 * c'.val + r.val, h⟩ k (Cert.Loss.lane g j) c' ⟨5000 * r.val + k.val, by omega⟩ ?_ ?_).trans ?_
  · show c'.val = (25 * c'.val + r.val) / 25
    omega
  · show 5000 * r.val + k.val = 5000 * ((25 * c'.val + r.val) % 25) + k.val
    omega
  rw [V_v1]
  exact reshape_at (m ((c : Thread nD τ).loc main_arg1)) g j c' r k ⟨5000 * r.val + k.val, by omega⟩ rfl

/-- The same for the probability block. -/
theorem pblk_row (c : Dev nD) (g : Fin 16) (j : Fin 8) (c' : Fin 2) (r : Fin 25)
    (h : 25 * c'.val + r.val < cfg0.N) (k : Fin 5000) :
    pblk m c ⟨25 * c'.val + r.val, h⟩ (ix3 0 k (Cert.Loss.lane g j))
      = argP m c (ix2 (Cert.Loss.rowOf g c' r k) j) := by
  have hc := c'.isLt
  have hr := r.isLt
  have hk := k.isLt
  refine (pblk_apply m c ⟨25 * c'.val + r.val, h⟩ k (Cert.Loss.lane g j) c' ⟨5000 * r.val + k.val, by omega⟩ ?_ ?_).trans ?_
  · show c'.val = (25 * c'.val + r.val) / 25
    omega
  · show 5000 * r.val + k.val = 5000 * ((25 * c'.val + r.val) % 25) + k.val
    omega
  rw [V_v0]
  exact reshape_at (m ((c : Thread nD τ).loc main_arg0)) g j c' r k ⟨5000 * r.val + k.val, by omega⟩ rfl

/-- Every point `25 c' + r` lies inside the grid of 50 points. -/
theorem point_lt (c' : Fin 2) (r : Fin 25) : 25 * c'.val + r.val < cfg0.N := by
  have hN : cfg0.N = 50 := N_0
  have hc := c'.isLt
  have hr := r.isLt
  omega

/-- Lane `8 g + j` of the target block at point `25 c' + r` summed over the block's rows is the sum of class `j` of
    the targets over the rows `rowOf g c' r k`. -/
theorem blkT_eq (c : Dev nD) (g : Fin 16) (j : Fin 8) (c' : Fin 2) (r : Fin 25) :
    blkT m c (Cert.Loss.lane g j) (25 * c'.val + r.val)
      = ∑ k : Fin 5000, argT m c (ix2 (Cert.Loss.rowOf g c' r k) j) := by
  have h := point_lt c' r
  unfold blkT
  rw [dif_pos h]
  exact Finset.sum_congr rfl fun k _ => tblk_row m c g j c' r h k

/-- The same for the contributions. -/
theorem blkE_eq (c : Dev nD) (g : Fin 16) (j : Fin 8) (c' : Fin 2) (r : Fin 25) :
    blkE m c (Cert.Loss.lane g j) (25 * c'.val + r.val)
      = ∑ k : Fin 5000, Cert.Loss.elem (argP m c (ix2 (Cert.Loss.rowOf g c' r k) j))
          (argT m c (ix2 (Cert.Loss.rowOf g c' r k) j)) := by
  have h := point_lt c' r
  unfold blkE
  rw [dif_pos h]
  exact Finset.sum_congr rfl fun k _ =>
    congrArg₂ Cert.Loss.elem (pblk_row m c g j c' r h k) (tblk_row m c g j c' r h k)

end Cert.KernelIdeal.LossValue

end
-- ==== Proof.KernelTail.lean ====
/-
  The host operations after the kernel's call, as one function of the two [2, 1, 128] accumulator arrays, and that
  function read at its one index.
-/
import proofs.«422197_j59631325938067_3_alg».proof.Proof.Gen.KernelIdeal
import proofs.«422197_j59631325938067_3_alg».proof.Proof.Loss
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.LossValue

open Cert.KernelIdeal Cert.KernelIdeal.Gen

/-- The tail: the two halves added, the 16 lane groups of each class added, the class weights
    `1 / (frequency + 0.001)` times the class sums added over the 8 classes, divided by the element count. -/
def tail (A2 A3 : FVec Ideal S2x1x128 .f32) : FVec Ideal S_ .f32 :=
  Host.divf (F := Ideal)
    (Host.reduceAdd (F := Ideal)
      (mulf
        (Host.divf (F := Ideal) (broadcastInDim S8 ![] bcast_S_S8 (constant (F := Ideal) S_ .f32 0x3F800000#32))
          (addf
            (Host.reduceAdd (F := Ideal)
              (shapeCast S16x8
                (Host.reduceAdd (F := Ideal) (shapeCast S2x128 A2 shapeCasts_S2x1x128_S2x128)
                  (constant (F := Ideal) S_ .f32 0x00000000#32) reducesTo_S2x128_S128_d0 h_S_)
                shapeCasts_S128_S16x8)
              (constant (F := Ideal) S_ .f32 0x00000000#32) reducesTo_S16x8_S8_d0 h_S_)
            (broadcastInDim S8 ![] bcast_S_S8 (constant (F := Ideal) S_ .f32 0x3A83126F#32))))
        (Host.reduceAdd (F := Ideal)
          (shapeCast S16x8
            (Host.reduceAdd (F := Ideal) (shapeCast S2x128 A3 shapeCasts_S2x1x128_S2x128)
              (constant (F := Ideal) S_ .f32 0x00000000#32) reducesTo_S2x128_S128_d0 h_S_)
            shapeCasts_S128_S16x8)
          (constant (F := Ideal) S_ .f32 0x00000000#32) reducesTo_S16x8_S8_d0 h_S_))
      (constant (F := Ideal) S_ .f32 0x00000000#32) reducesTo_S8_S_d0 h_S_)
    (constant (F := Ideal) S_ .f32 0x4BF42400#32)

/-! ### Indices of the reductions -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Summing a [2, 128] array over its halves visits, at lane `l`, the indices `(c', l)`. -/
theorem lift_halves (h : S2x128.Reduces [0] S128) (l : Fin 128) (c' : Fin 2) : h.lift (ix1 l) c' = ix2 c' l :=
  funext fun a => Fin.ext (by match a with | ⟨0, _⟩ => rfl | ⟨1, _⟩ => rfl)

/-- Summing a [16, 8] array over its rows visits, at class `j`, the indices `(g, j)`. -/
theorem lift_groups (h : S16x8.Reduces [0] S8) (j : Fin 8) (g : Fin 16) : h.lift (ix1 j) g = ix2 g j :=
  funext fun a => Fin.ext (by match a with | ⟨0, _⟩ => rfl | ⟨1, _⟩ => rfl)

/-! ### One operation at a time -/

/-- The [2, 1, 128] array read as [2, 128]: `(c', l)` is `(c', 0, l)`. -/
theorem cast_halves_apply (A : FVec Ideal S2x1x128 .f32) (c' : Fin 2) (l : Fin 128) :
    shapeCast S2x128 A shapeCasts_S2x1x128_S2x128 (ix2 c' l) = A (ix3 c' 0 l) :=
  shapeCast_apply A shapeCasts_S2x1x128_S2x128 _ _ (by
    rw [Shape.rowMajor_val_three, Shape.rowMajor_val_two]
    show (c'.val * 1 + 0) * 128 + l.val = c'.val * 128 + l.val
    omega)

/-- The two halves added: at lane `l`, the sum over the halves of the array at `(c', 0, l)`. -/
theorem halves_apply (A : FVec Ideal S2x1x128 .f32) (l : Fin 128) :
    Host.reduceAdd (F := Ideal) (shapeCast S2x128 A shapeCasts_S2x1x128_S2x128)
        (constant (F := Ideal) S_ .f32 0x00000000#32) reducesTo_S2x128_S128_d0 h_S_ (ix1 l)
      = ∑ c' : Fin 2, A (ix3 c' 0 l) := by
  simp only [Host.reduceAdd, Ideal.hostReduceAdd_def]
  rw [Ideal.hostReduceAdd_single reducesTo_S2x128_S128_d0 (by decide), constant_apply, Ideal.ofBits_zero_f32, zero_add]
  refine Finset.sum_congr rfl fun c' _ => ?_
  exact (congrArg (shapeCast S2x128 A shapeCasts_S2x1x128_S2x128) (lift_halves _ l c')).trans (cast_halves_apply A c' l)

/-- The [128] array read as [16, 8], row-major: `(g, j)` is lane `8 g + j`. -/
theorem cast_groups_apply (v : FVec Ideal S128 .f32) (g : Fin 16) (j : Fin 8) :
    shapeCast S16x8 v shapeCasts_S128_S16x8 (ix2 g j) = v (ix1 (Cert.Loss.lane g j)) :=
  shapeCast_apply v shapeCasts_S128_S16x8 _ _ (by
    rw [Shape.rowMajor_val_one, Shape.rowMajor_val_two]
    show 8 * g.val + j.val = g.val * 8 + j.val
    omega)

/-- The 16 lane groups added: at class `j`, the sum over the groups of the array at lane `8 g + j`. -/
theorem groups_apply (v : FVec Ideal S128 .f32) (j : Fin 8) :
    Host.reduceAdd (F := Ideal) (shapeCast S16x8 v shapeCasts_S128_S16x8)
        (constant (F := Ideal) S_ .f32 0x00000000#32) reducesTo_S16x8_S8_d0 h_S_ (ix1 j)
      = ∑ g : Fin 16, v (ix1 (Cert.Loss.lane g j)) := by
  simp only [Host.reduceAdd, Ideal.hostReduceAdd_def]
  rw [Ideal.hostReduceAdd_single reducesTo_S16x8_S8_d0 (by decide), constant_apply, Ideal.ofBits_zero_f32, zero_add]
  refine Finset.sum_congr rfl fun g _ => ?_
  exact (congrArg (shapeCast S16x8 v shapeCasts_S128_S16x8) (lift_groups _ j g)).trans (cast_groups_apply v g j)

/-- A constant broadcast over the 8 classes is that constant at every class. -/
theorem bcast_apply (w : BitVec 32) (k : S8.Idx) :
    broadcastInDim S8 ![] bcast_S_S8 (constant (F := Ideal) S_ .f32 w) k = Ideal.ofBits .f32 w :=
  broadcastInDim_apply _ bcast_S_S8 (constant (F := Ideal) S_ .f32 w) k (fun a => a.elim0) (fun a => a.elim0)

/-- The 8 classes added into the rank-0 result: the sum over the classes. -/
theorem total_apply (v : FVec Ideal S8 .f32) (i : S_.Idx) :
    Host.reduceAdd (F := Ideal) v (constant (F := Ideal) S_ .f32 0x00000000#32) reducesTo_S8_S_d0 h_S_ i
      = ∑ j : Fin 8, v (ix1 j) := by
  simp only [Host.reduceAdd, Ideal.hostReduceAdd_def]
  rw [Ideal.hostReduceAdd_total reducesTo_S8_S_d0 (fun b => b.elim0), constant_apply, Ideal.ofBits_zero_f32, zero_add]
  exact sum_idx1 v

/-- The weight times the class sum, at one class. -/
theorem weighted_apply (one eps Fq Sm : FVec Ideal S8 .f32) (k : S8.Idx) :
    mulf (Host.divf (F := Ideal) one (addf Fq eps)) Sm k = Ideal.div (one k) (Fq k + eps k) * Sm k := rfl

/-- The tail at its one index: with `F j` and `S j` the sums of lane `8 g + j` of the two arrays over the two
    halves and the 16 lane groups, it is `(∑ j, 1 / (F j + 0.001) * S j) / 3.2e7`. -/
theorem tail_apply (A2 A3 : FVec Ideal S2x1x128 .f32) (i : S_.Idx) :
    tail A2 A3 i
      = Ideal.div (∑ j : Fin 8,
          Ideal.div Cert.Loss.oneW ((∑ g : Fin 16, ∑ c' : Fin 2, A2 (ix3 c' 0 (Cert.Loss.lane g j))) + Cert.Loss.epsW)
            * ∑ g : Fin 16, ∑ c' : Fin 2, A3 (ix3 c' 0 (Cert.Loss.lane g j))) Cert.Loss.cntW := by
  unfold tail
  show Ideal.div _ Cert.Loss.cntW = _
  refine congrArg (fun z => Ideal.div z Cert.Loss.cntW) ?_
  rw [total_apply]
  refine Finset.sum_congr rfl fun j _ => ?_
  rw [weighted_apply, bcast_apply, bcast_apply, groups_apply, groups_apply]
  simp only [halves_apply]

end Cert.KernelIdeal.LossValue

end
-- ==== Proof.KernelValue.lean ====
/-
  The kernel program's result is the closed-form loss of its two arguments.

  The frame run leaves the result buffer at the host tail of the two accumulator arrays; those hold the half sums of
  the blocks' lane sums; a block's lane sum is a sum over rows of an argument; and the lane groups, halves, blocks
  and rows together visit every row once. So the tail's class frequencies and class sums are the columns' sums, and
  the tail is the loss.
-/
import proofs.«422197_j59631325938067_3_alg».proof.Proof.KernelArrays
import proofs.«422197_j59631325938067_3_alg».proof.Proof.KernelBlocks
import proofs.«422197_j59631325938067_3_alg».proof.Proof.KernelTail
import proofs.«422197_j59631325938067_3_alg».proof.Proof.SumLaws
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.LossValue

open Cert.KernelIdeal Cert.KernelIdeal.Gen

variable (m : (ℓ : Loc nD τ sig) → Buf (Elt Ideal) ℓ) (ρ : Dev nD → PrngReg)

/-- After the host operations that follow the call, the result buffer holds the tail of the two final arrays. -/
theorem result_tail (c : Dev nD) :
    Pipeline.afterTail₀ cfgs (dats m) 0 (V0 m) [hostOps1] c main_v17 = tail (freqArr m c) (lossArr m c) := by
  have e2 : Pipeline.withArrays (cfgs 0).spec c (V0 m c) (fun w => (dats m 0 c).arrAt w (cfgs 0).N)
      (Proc.devRef .tc main_v2_0) = freqArr m c :=
    (Pipeline.withArrays_arr spec0 launch0.win.arr_inj c _ _ 2).trans (final2 m c)
  have e3 : Pipeline.withArrays (cfgs 0).spec c (V0 m c) (fun w => (dats m 0 c).arrAt w (cfgs 0).N)
      (Proc.devRef .tc main_v2_1) = lossArr m c :=
    (Pipeline.withArrays_arr spec0 launch0.win.arr_inj c _ _ 3).trans (final3 m c)
  unfold Pipeline.afterTail₀
  show StableHlo.after hostOps1 _ (Proc.devRef .tc main_v17) = _
  after_results
  rw [e2, e3]
  rfl

/-- Lane `8 g + j` of the frequency array summed over lane groups and halves is class `j`'s column sum of the
    targets. -/
theorem freq_col (c : Dev nD) (j : Fin 8) :
    ∑ g : Fin 16, ∑ c' : Fin 2, freqArr m c (ix3 c' 0 (Cert.Loss.lane g j)) = Cert.Loss.colT (argT m c) j := by
  have e : ∀ (g : Fin 16) (c' : Fin 2), freqArr m c (ix3 c' 0 (Cert.Loss.lane g j))
      = ∑ r : Fin 25, ∑ k : Fin 5000, argT m c (ix2 (Cert.Loss.rowOf g c' r k) j) := by
    intro g c'
    show ∑ r ∈ Finset.range 25, blkT m c (Cert.Loss.lane g j) (25 * c'.val + r) = _
    rw [Finset.sum_range]
    exact Finset.sum_congr rfl fun r _ => blkT_eq m c g j c' r
  rw [Finset.sum_congr rfl fun g _ => Finset.sum_congr rfl fun c' _ => e g c']
  exact Cert.Loss.sum_tiles fun i => argT m c (ix2 i j)

/-- The same for the loss array and the contributions. -/
theorem loss_col (c : Dev nD) (j : Fin 8) :
    ∑ g : Fin 16, ∑ c' : Fin 2, lossArr m c (ix3 c' 0 (Cert.Loss.lane g j))
      = Cert.Loss.colE (argP m c) (argT m c) j := by
  have e : ∀ (g : Fin 16) (c' : Fin 2), lossArr m c (ix3 c' 0 (Cert.Loss.lane g j))
      = ∑ r : Fin 25, ∑ k : Fin 5000, Cert.Loss.elem (argP m c (ix2 (Cert.Loss.rowOf g c' r k) j))
          (argT m c (ix2 (Cert.Loss.rowOf g c' r k) j)) := by
    intro g c'
    show ∑ r ∈ Finset.range 25, blkE m c (Cert.Loss.lane g j) (25 * c'.val + r) = _
    rw [Finset.sum_range]
    exact Finset.sum_congr rfl fun r _ => blkE_eq m c g j c' r
  rw [Finset.sum_congr rfl fun g _ => Finset.sum_congr rfl fun c' _ => e g c']
  exact Cert.Loss.sum_tiles fun i => Cert.Loss.elem (argP m c (ix2 i j)) (argT m c (ix2 i j))

/-- The tail of the two final arrays is the loss. -/
theorem tail_loss (c : Dev nD) :
    tail (freqArr m c) (lossArr m c) = fun _ => Cert.Loss.loss (argP m c) (argT m c) := by
  funext i
  rw [tail_apply]
  unfold Cert.Loss.loss Cert.Loss.weight
  refine congrArg (Ideal.div · Cert.Loss.cntW) (Finset.sum_congr rfl fun j _ => ?_)
  rw [freq_col, loss_col]

/-- THE RUN, READ: every weakly fair execution of the kernel program terminates with its result at the loss of its
    arguments, the arguments unchanged. -/
theorem run : θ_run defs (onTc (τ := τ) (main (F := Ideal))) ⟨m, fun _ => 0, ρ⟩ fun r => ∀ c : Dev nD,
      r.2.mem ((c : Thread nD τ).loc main_v17) = (fun _ => Cert.Loss.loss (argP m c) (argT m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(((h c).2 main_v17 (Pipeline.mem_restRefs_of main_v17 (by decide) (by decide))).trans (result_tail m c)).trans (tail_loss m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.LossValue

end
-- ==== Proof.LibFinite.lean ====
/-
  Finiteness in the extended reals: which operations keep a value the coercion of a real.

  The extended reals `[-∞, +∞]` are not a ring (distributivity fails at the infinities), so
  an algebraic identity is proved over the reals and transported along the coercion. This
  file collects what the transport needs: a value clamped between two reals is a real in
  that interval; sums, differences, products, minima and maxima of coerced reals are the
  coerced ones; the ideal quotient by a nonzero real and the ideal power of two reals are
  coerced reals; zero annihilates every extended real; and the ideal floor and the
  conversions between reals and 32-bit words are exact on the integers that fit.
-/
import Mathlib.Data.EReal.Operations
import Mathlib.Data.EReal.Inv
import Mathlib.Algebra.Order.Floor.Ring
import Mathlib.Analysis.SpecialFunctions.Pow.Real
import Mathlib.Algebra.BigOperators.Group.Finset.Basic
import Idealize.ShloMosaic.PureOps.Ideal
import Idealize.ShloMosaic.PureOps.Ideal.Laws

namespace Cert.Lib

open Idealize.ShloMosaic

/-! ### Clamping -/

/-- Clamping any extended real `z` between two reals `lo ≤ hi` gives the coercion of a real
    in `[lo, hi]`: `-∞` goes to `lo`, `+∞` to `hi`, and a real to its real clamp. -/
theorem clamp_coe (lo hi : ℝ) (h : lo ≤ hi) (z : EReal) :
    ∃ r : ℝ, lo ≤ r ∧ r ≤ hi ∧ min (hi : EReal) (max (lo : EReal) z) = (r : EReal) := by
  induction z using EReal.rec with
  | bot =>
    refine ⟨lo, le_refl lo, h, ?_⟩
    rw [max_eq_left bot_le, min_eq_right (EReal.coe_le_coe_iff.mpr h)]
  | coe x =>
    refine ⟨min hi (max lo x), le_min h (le_max_left lo x), min_le_left _ _, ?_⟩
    rw [EReal.coe_strictMono.monotone.map_min, EReal.coe_strictMono.monotone.map_max]
  | top =>
    refine ⟨hi, h, le_refl hi, ?_⟩
    rw [max_eq_right le_top, min_eq_left le_top]

/-! ### Arithmetic of coerced reals -/

/-- The sum of two coerced reals is the coerced sum. -/
theorem coe_add_coe (a b : ℝ) : (a : EReal) + (b : EReal) = ((a + b : ℝ) : EReal) :=
  (EReal.coe_add a b).symm

/-- The difference of two coerced reals is the coerced difference. -/
theorem coe_sub_coe (a b : ℝ) : (a : EReal) - (b : EReal) = ((a - b : ℝ) : EReal) :=
  (EReal.coe_sub a b).symm

/-- The product of two coerced reals is the coerced product. -/
theorem coe_mul_coe (a b : ℝ) : (a : EReal) * (b : EReal) = ((a * b : ℝ) : EReal) :=
  (EReal.coe_mul a b).symm

/-- The negation of a coerced real is the coerced negation. -/
theorem neg_coe (a : ℝ) : -(a : EReal) = ((-a : ℝ) : EReal) :=
  (EReal.coe_neg a).symm

/-- The minimum of two coerced reals is the coerced minimum. -/
theorem coe_min_coe (a b : ℝ) : min (a : EReal) (b : EReal) = ((min a b : ℝ) : EReal) :=
  (EReal.coe_strictMono.monotone.map_min).symm

/-- The maximum of two coerced reals is the coerced maximum. -/
theorem coe_max_coe (a b : ℝ) : max (a : EReal) (b : EReal) = ((max a b : ℝ) : EReal) :=
  (EReal.coe_strictMono.monotone.map_max).symm

/-- Zero times any extended real, infinite or not, is zero. -/
theorem zero_mul_ereal (z : EReal) : 0 * z = 0 := zero_mul z

/-- Any extended real, infinite or not, times zero is zero. -/
theorem mul_zero_ereal (z : EReal) : z * 0 = 0 := mul_zero z

/-! ### The ideal quotient and power -/

/-- The ideal quotient of a coerced real by a nonzero coerced real is the coerced quotient. -/
theorem div_coe_coe (a b : ℝ) (hb : b ≠ 0) :
    Ideal.div (a : EReal) (b : EReal) = ((a / b : ℝ) : EReal) := by
  rw [Ideal.div_coe hb, ← EReal.coe_mul, mul_one_div]

/-- The same, for the quotient as a kernel's float operation. -/
theorem divf_coe_coe {φ : FTy} (a b : ℝ) (hb : b ≠ 0) :
    FloatOps.divf (F := Ideal) (φ := φ) (a : EReal) (b : EReal) = ((a / b : ℝ) : EReal) :=
  div_coe_coe a b hb

/-- The same, for the quotient as the host's float operation. -/
theorem hostDivf_coe_coe {φ : FTy} (a b : ℝ) (hb : b ≠ 0) :
    FloatOps.hostDivf (F := Ideal) (φ := φ) (a : EReal) (b : EReal) = ((a / b : ℝ) : EReal) :=
  div_coe_coe a b hb

/-- The ideal power of two coerced reals is the coerced real power. -/
theorem pow_coe_coe (a b : ℝ) : Ideal.pow (a : EReal) (b : EReal) = ((a ^ b : ℝ) : EReal) := rfl

/-- The same, for the power as a kernel's float operation. -/
theorem powf_coe_coe {φ : FTy} (a b : ℝ) :
    FloatOps.powf (F := Ideal) (φ := φ) (a : EReal) (b : EReal) = ((a ^ b : ℝ) : EReal) := rfl

/-- The same, for the power as the host's float operation. -/
theorem hostPowf_coe_coe {φ : FTy} (a b : ℝ) :
    FloatOps.hostPowf (F := Ideal) (φ := φ) (a : EReal) (b : EReal) = ((a ^ b : ℝ) : EReal) := rfl

/-! ### Floor -/

/-- The ideal floor of a coerced real `r` is the coercion of the integer `⌊r⌋`. -/
theorem floor_coe (r : ℝ) :
    Ideal.liftRound Int.floor (r : EReal) = (((⌊r⌋ : ℤ) : ℝ) : EReal) := rfl

/-- The same, for the floor as a kernel's float operation. -/
theorem floorf_coe {φ : FTy} (r : ℝ) :
    FloatOps.floor (F := Ideal) (φ := φ) (r : EReal) = (((⌊r⌋ : ℤ) : ℝ) : EReal) := rfl

/-- The same, for the floor as the host's float operation. -/
theorem hostFloor_coe {φ : FTy} (r : ℝ) :
    FloatOps.hostUnary (F := Ideal) (φ := φ) .floor (r : EReal) = (((⌊r⌋ : ℤ) : ℝ) : EReal) := rfl

/-- The floor of a real in `[lo, hi]`, for integers `lo` and `hi`, is an integer in `[lo, hi]`. -/
theorem floor_mem_Icc (lo hi : ℤ) (r : ℝ) (h0 : (lo : ℝ) ≤ r) (h1 : r ≤ (hi : ℝ)) :
    lo ≤ ⌊r⌋ ∧ ⌊r⌋ ≤ hi :=
  ⟨Int.le_floor.mpr h0, Int.cast_le.mp ((Int.floor_le r).trans h1)⟩

/-! ### Conversions between reals and 32-bit words -/

/-- The conversion of a coerced integer that fits a signed 32-bit word is the word of that
    integer: the rounding toward zero fixes an integer and the clamp does not bind. -/
theorem fptosi32_coe_int (n : ℤ) (hlo : -(2 : ℤ) ^ 31 ≤ n) (hhi : n ≤ 2 ^ 31 - 1) :
    Ideal.fptosi 32 (((n : ℤ) : ℝ) : EReal) = BitVec.ofInt 32 n := by
  unfold Ideal.fptosi
  rw [Ideal.toIntClamped_coe]
  congr 1
  simp only [Int.floor_intCast, Int.ceil_intCast, ite_self]
  rw [min_eq_right (by norm_num; omega), max_eq_right (by norm_num; omega)]

/-- In particular for an integer `0 ≤ n ≤ 19999`. -/
theorem fptosi32_coe_int_small (n : ℤ) (h0 : 0 ≤ n) (h1 : n ≤ 19999) :
    Ideal.fptosi 32 (((n : ℤ) : ℝ) : EReal) = BitVec.ofInt 32 n :=
  fptosi32_coe_int n (by omega) (by omega)

/-- The same, for the conversion as a float operation (kernel's or host's: one field). -/
theorem fptosi32_field_coe_int {φ : FTy} (n : ℤ) (hlo : -(2 : ℤ) ^ 31 ≤ n) (hhi : n ≤ 2 ^ 31 - 1) :
    FloatOps.fptosi (F := Ideal) (φ := φ) 32 (((n : ℤ) : ℝ) : EReal) = BitVec.ofInt 32 n :=
  fptosi32_coe_int n hlo hhi

/-- The conversion of a word to a float is the coercion of the word read as a signed integer. -/
theorem sitofp_coe {φ : FTy} {w : ℕ} (b : BitVec w) :
    FloatOps.sitofp (F := Ideal) φ b = ((b.toInt : ℝ) : EReal) := rfl

/-- The 32-bit word of an integer that fits reads back, signed, as that integer. -/
theorem toInt_ofInt32 (n : ℤ) (hlo : -(2 : ℤ) ^ 31 ≤ n) (hhi : n ≤ 2 ^ 31 - 1) :
    (BitVec.ofInt 32 n).toInt = n :=
  BitVec.toInt_ofInt_eq_self (by norm_num) (by norm_num; omega) (by norm_num; omega)

/-- The 32-bit word of an integer `0 ≤ n < 2 ^ 31` reads, unsigned, as that number. -/
theorem toNat_ofInt32 (n : ℤ) (h0 : 0 ≤ n) (hhi : n ≤ 2 ^ 31 - 1) :
    ((BitVec.ofInt 32 n).toNat : ℤ) = n := by
  rw [BitVec.toNat_ofInt]
  omega

/-- Converting a coerced integer that fits to a word and back is the identity. -/
theorem sitofp_fptosi32_coe_int {φ : FTy} (n : ℤ) (hlo : -(2 : ℤ) ^ 31 ≤ n) (hhi : n ≤ 2 ^ 31 - 1) :
    FloatOps.sitofp (F := Ideal) φ (Ideal.fptosi 32 (((n : ℤ) : ℝ) : EReal))
      = (((n : ℤ) : ℝ) : EReal) := by
  rw [sitofp_coe, fptosi32_coe_int n hlo hhi, toInt_ofInt32 n hlo hhi]

/-! ### Finite values as a predicate, and its closure properties -/

/-- An extended real is *finite* when it is the coercion of a real. -/
def IsReal (z : EReal) : Prop := ∃ r : ℝ, z = (r : EReal)

/-- A coerced real is finite. -/
theorem isReal_coe (r : ℝ) : IsReal (r : EReal) := ⟨r, rfl⟩

/-- Zero is finite. -/
theorem isReal_zero : IsReal 0 := ⟨0, EReal.coe_zero.symm⟩

/-- One is finite. -/
theorem isReal_one : IsReal 1 := ⟨1, EReal.coe_one.symm⟩

/-- Finite means neither of the two infinities. -/
theorem isReal_iff (z : EReal) : IsReal z ↔ z ≠ ⊥ ∧ z ≠ ⊤ := by
  constructor
  · rintro ⟨r, rfl⟩
    exact ⟨EReal.coe_ne_bot r, EReal.coe_ne_top r⟩
  · rintro ⟨hb, ht⟩
    exact ⟨z.toReal, (EReal.coe_toReal ht hb).symm⟩

/-- A finite value is the coercion of its real part. -/
theorem IsReal.coe_toReal {z : EReal} (h : IsReal z) : ((z.toReal : ℝ) : EReal) = z :=
  EReal.coe_toReal ((isReal_iff z).mp h).2 ((isReal_iff z).mp h).1

/-- A sum of two finite values is finite. -/
theorem IsReal.add {x y : EReal} (hx : IsReal x) (hy : IsReal y) : IsReal (x + y) := by
  obtain ⟨a, rfl⟩ := hx
  obtain ⟨b, rfl⟩ := hy
  exact ⟨a + b, coe_add_coe a b⟩

/-- A difference of two finite values is finite. -/
theorem IsReal.sub {x y : EReal} (hx : IsReal x) (hy : IsReal y) : IsReal (x - y) := by
  obtain ⟨a, rfl⟩ := hx
  obtain ⟨b, rfl⟩ := hy
  exact ⟨a - b, coe_sub_coe a b⟩

/-- A product of two finite values is finite. -/
theorem IsReal.mul {x y : EReal} (hx : IsReal x) (hy : IsReal y) : IsReal (x * y) := by
  obtain ⟨a, rfl⟩ := hx
  obtain ⟨b, rfl⟩ := hy
  exact ⟨a * b, coe_mul_coe a b⟩

/-- The negation of a finite value is finite. -/
theorem IsReal.neg {x : EReal} (hx : IsReal x) : IsReal (-x) := by
  obtain ⟨a, rfl⟩ := hx
  exact ⟨-a, neg_coe a⟩

/-- The minimum of two finite values is finite. -/
theorem IsReal.min {x y : EReal} (hx : IsReal x) (hy : IsReal y) : IsReal (min x y) := by
  obtain ⟨a, rfl⟩ := hx
  obtain ⟨b, rfl⟩ := hy
  exact ⟨Min.min a b, coe_min_coe a b⟩

/-- The maximum of two finite values is finite. -/
theorem IsReal.max {x y : EReal} (hx : IsReal x) (hy : IsReal y) : IsReal (max x y) := by
  obtain ⟨a, rfl⟩ := hx
  obtain ⟨b, rfl⟩ := hy
  exact ⟨Max.max a b, coe_max_coe a b⟩

/-- A finite sum of finite values is finite. -/
theorem IsReal.sum {ι : Type*} (s : Finset ι) (f : ι → EReal) (h : ∀ i ∈ s, IsReal (f i)) :
    IsReal (∑ i ∈ s, f i) :=
  Finset.sum_induction f IsReal (fun _ _ hx hy => hx.add hy) isReal_zero h

/-- A value clamped between two reals `lo ≤ hi` is finite, whatever it was. -/
theorem isReal_clamp (lo hi : ℝ) (h : lo ≤ hi) (z : EReal) :
    IsReal (Min.min (hi : EReal) (Max.max (lo : EReal) z)) := by
  obtain ⟨r, _, _, hr⟩ := clamp_coe lo hi h z
  exact ⟨r, hr⟩

/-- The ideal quotient of a finite value by a finite nonzero value is finite. -/
theorem IsReal.div {x y : EReal} (hx : IsReal x) (hy : IsReal y) (h0 : y ≠ 0) :
    IsReal (Ideal.div x y) := by
  obtain ⟨a, rfl⟩ := hx
  obtain ⟨b, rfl⟩ := hy
  exact ⟨a / b, div_coe_coe a b (fun e => h0 (by rw [e, EReal.coe_zero]))⟩

/-- The ideal power of two finite values is finite. -/
theorem IsReal.pow {x y : EReal} (hx : IsReal x) (hy : IsReal y) : IsReal (Ideal.pow x y) := by
  obtain ⟨a, rfl⟩ := hx
  obtain ⟨b, rfl⟩ := hy
  exact ⟨a ^ b, pow_coe_coe a b⟩

/-- The ideal floor of a finite value is finite. -/
theorem IsReal.floor {x : EReal} (hx : IsReal x) : IsReal (Ideal.liftRound Int.floor x) := by
  obtain ⟨a, rfl⟩ := hx
  exact ⟨((⌊a⌋ : ℤ) : ℝ), floor_coe a⟩

end Cert.Lib
-- ==== Proof.RefValue.lean ====
/-
  The reference program's result is the closed-form loss.

  The reference computes, for probabilities `p` and targets `t` of shape [4000000, 8],
    ( ∑ over all elements of  -(t · max (log p) (-100) + (1 - t) · max (log1p (-p)) (-100)) · w(column) ) / 3.2e7,
  with `w(b) = 1 / ((∑ over rows of [t = 1]) + 0.001)`. When every target is zero or one the indicator `[t = 1]`
  is `t` itself, so the class frequency is the column sum of the targets; and the bracket keeps exactly one of its
  two products, the clamped log of the probability given to the element's own label. Every weight and every
  element term is then a real number (the clamp removes the `-∞` of a logarithm at a non-positive argument, the
  frequency plus the offset is positive), so the weighted sum over the array regroups by columns.
-/
import proofs.«422197_j59631325938067_3_alg».proof.Proof.Gen.ReferenceIdeal.Read
import proofs.«422197_j59631325938067_3_alg».proof.Proof.Loss
import proofs.«422197_j59631325938067_3_alg».proof.Proof.SumLaws
import proofs.«422197_j59631325938067_3_alg».proof.Proof.LibFinite

noncomputable section

open scoped BigOperators

namespace Cert.ReferenceIdeal.LossValue

open Idealize.ShloMosaic Idealize.ShloMosaic.ValueIdx Cert.Loss Cert.Lib Cert.ReferenceIdeal Cert.ReferenceIdeal.Read

/-! ### The float words as real numbers -/

/-- The word `0xC2C80000` is the real number `-100`. -/
theorem clampW_eq : clampW = ((-100 : ℝ) : EReal) := by
  simp [clampW, Ideal.ofBits, Ideal.ieee]
  rw [← EReal.coe_mul, EReal.coe_eq_coe_iff]
  norm_num

/-- The word `0x3A83126F` is a positive real number. -/
theorem epsW_pos : ∃ e : ℝ, 0 < e ∧ epsW = (e : EReal) := by
  simp [epsW, Ideal.ofBits, Ideal.ieee]
  refine ⟨_, ?_, (EReal.coe_mul _ _).symm⟩
  positivity

/-! ### One element, for a target that is zero or one -/

/-- The indicator of "the target equals one" is the target itself. -/
theorem indicator_eq (t : EReal) (ht : t = 0 ∨ t = 1) :
    (((Ideal.cmp .oeq t oneW).toNat : ℝ) : EReal) = t := by
  rcases ht with rfl | rfl
  · have h : ¬ ((0 : EReal) = oneW) := by rw [oneW_eq]; exact zero_ne_one
    simp [Ideal.cmp, h]
  · have h : ((1 : EReal) = oneW) := oneW_eq.symm
    simp [Ideal.cmp, h]

/-- The reference's bracket `-(t · lp + (1 - t) · l1)` keeps one product: at `t = 1` the clamped `log p`, at
    `t = 0` the clamped `log1p (-p) = log (1 - p)`. Zero annihilates every extended real, so the dropped
    product is zero even where its logarithm is infinite. -/
theorem term_eq (p t : EReal) (ht : t = 0 ∨ t = 1) :
    -(t * max (Ideal.log p) clampW + (oneW - t) * max (Ideal.log1p (-p)) clampW) = elem p t := by
  rcases ht with rfl | rfl
  · have h : ¬ ((0 : EReal) = oneW) := by rw [oneW_eq]; exact zero_ne_one
    rw [elem, if_neg h, zero_mul, zero_add, sub_zero, zero_sub, Ideal.log1p, oneW_eq, one_mul, sub_eq_add_neg]
  · have h : ((1 : EReal) = oneW) := oneW_eq.symm
    have h11 : (1 : EReal) - 1 = 0 := by
      rw [← EReal.coe_one, ← EReal.coe_sub, sub_self, EReal.coe_zero]
    rw [elem, if_pos h, oneW_eq, h11, zero_mul, add_zero, one_mul, zero_sub]

/-! ### Finiteness of the element terms and of the weights -/

/-- The logarithm of a real number is never `+∞`. -/
theorem log_ne_top (r : ℝ) : Ideal.log (r : EReal) ≠ ⊤ := by
  rw [Ideal.log_coe]
  split_ifs
  · exact bot_ne_top
  · exact EReal.coe_ne_top _

/-- Clamping from below at `-100` makes anything but `+∞` a real number. -/
theorem isReal_max_clamp (z : EReal) (hz : z ≠ ⊤) : IsReal (max z clampW) := by
  rw [clampW_eq]
  induction z using EReal.rec with
  | bot => rw [max_eq_right bot_le]; exact isReal_coe _
  | coe x => exact (isReal_coe x).max (isReal_coe _)
  | top => exact absurd rfl hz

/-- An element's contribution at a real probability is a real number. -/
theorem isReal_elem (p t : EReal) (hp : IsReal p) : IsReal (elem p t) := by
  have hq : IsReal (if t = oneW then p else oneW - p) := by
    split_ifs
    · exact hp
    · rw [oneW_eq]; exact isReal_one.sub hp
  obtain ⟨q, hq⟩ := hq
  rw [elem, hq]
  exact isReal_zero.sub (isReal_max_clamp _ (log_ne_top q))

/-- A column of zeros and ones sums to a nonnegative real number. -/
theorem colT_nonneg (x1 : SIn.Idx → EReal) (h1 : ∀ i, x1 i = 0 ∨ x1 i = 1) (b : Fin 8) :
    ∃ c : ℝ, 0 ≤ c ∧ colT x1 b = (c : EReal) := by
  unfold colT
  refine Finset.sum_induction (fun i : Fin 4000000 => x1 (ix2 i b))
    (fun z => ∃ c : ℝ, 0 ≤ c ∧ z = (c : EReal)) ?_ ?_ ?_
  · rintro _ _ ⟨a, ha, rfl⟩ ⟨c, hc, rfl⟩
    exact ⟨a + c, add_nonneg ha hc, (EReal.coe_add a c).symm⟩
  · exact ⟨0, le_refl 0, EReal.coe_zero.symm⟩
  · intro i _
    rcases h1 (ix2 i b) with h | h
    · exact ⟨0, le_refl 0, by rw [h, EReal.coe_zero]⟩
    · exact ⟨1, zero_le_one, by rw [h, EReal.coe_one]⟩

/-- A class weight is a real number: its denominator, a nonnegative frequency plus a positive offset, is a
    positive real. -/
theorem isReal_weight (x1 : SIn.Idx → EReal) (h1 : ∀ i, x1 i = 0 ∨ x1 i = 1) (b : Fin 8) :
    IsReal (weight x1 b) := by
  obtain ⟨c, hc, hcol⟩ := colT_nonneg x1 h1 b
  obtain ⟨e, he, heps⟩ := epsW_pos
  rw [weight, hcol, heps, oneW_eq, ← EReal.coe_add]
  refine isReal_one.div (isReal_coe _) ?_
  rw [← EReal.coe_zero, Ne, EReal.coe_eq_coe_iff]
  exact (add_pos_of_nonneg_of_pos hc he).ne'

/-! ### The reference's stages read at an index -/

section Stages

variable (x0 x1 : (⟨S4000000x8, .f32⟩ : BufTy).Contents (Elt Ideal))

/-- The indicator stage is the target array. -/
theorem v2_eq (h1 : ∀ i, x1 i = 0 ∨ x1 i = 1) (m : S4000000x8.Idx) :
    val_main_v2 (F := Ideal) x1 m = x1 m := by
  rw [val_main_v2_apply, val_main_v1_apply, val_main_v0_apply, val_main_cst_apply]
  exact indicator_eq (x1 m) (h1 m)

/-- The index the column reduction reads: row `r` of the column. -/
theorem idx_v3_eq (k : S8.Idx) (r : Fin 4000000) : idx_main_v3 k r = ix2 r (k 0) := by
  funext a
  match a with
  | ⟨0, _⟩ => rfl
  | ⟨1, _⟩ => rfl

/-- The column reduction of the indicators is the class frequency. -/
theorem v3_eq (h1 : ∀ i, x1 i = 0 ∨ x1 i = 1) (k : S8.Idx) :
    val_main_v3 (F := Ideal) x1 k = colT x1 (k 0) := by
  rw [val_main_v3_apply, val_main_cst_0_apply, Ideal.ofBits_def, Ideal.ofBits_zero_f32, zero_add]
  exact Finset.sum_congr rfl fun r _ => (v2_eq x1 h1 _).trans (congrArg x1 (idx_v3_eq k r))

/-- The reciprocal stage is the class weight. -/
theorem v7_eq (h1 : ∀ i, x1 i = 0 ∨ x1 i = 1) (k : S8.Idx) :
    val_main_v7 (F := Ideal) x1 k = weight x1 (k 0) := by
  rw [val_main_v7_apply, val_main_v6_apply, val_main_cst_2_apply, val_main_v5_apply, val_main_v4_apply,
    val_main_cst_1_apply, v3_eq x1 h1]
  rfl

/-- Through the two broadcasts, an element's weight is the weight of its column. -/
theorem v22_eq (h1 : ∀ i, x1 i = 0 ∨ x1 i = 1) (j : S4000000x8.Idx) :
    val_main_v22 (F := Ideal) x1 j = weight x1 ⟨(j 1).val, (j 1).isLt⟩ := by
  rw [val_main_v22_apply, val_main_v21_apply, v7_eq x1 h1]
  rfl

/-- The negated bracket, at one element. -/
theorem v20_eq (j : S4000000x8.Idx) :
    val_main_v20 (F := Ideal) x0 x1 j
      = -(x1 j * max (Ideal.log (x0 j)) clampW + (oneW - x1 j) * max (Ideal.log1p (-(x0 j))) clampW) := by
  rw [val_main_v20_apply, val_main_v19_apply, val_main_v15_apply, val_main_v10_apply, val_main_v8_apply,
    val_main_v9_apply, val_main_cst_3_apply, val_main_v18_apply, val_main_v17_apply, val_main_v16_apply,
    val_main_cst_5_apply, val_main_v14_apply, val_main_v12_apply, val_main_v11_apply, val_main_v13_apply,
    val_main_cst_4_apply]
  rfl

/-- The weighted term, at one element: the closed-form contribution times the column's weight. -/
theorem v23_eq (h1 : ∀ i, x1 i = 0 ∨ x1 i = 1) (j : S4000000x8.Idx) :
    val_main_v23 (F := Ideal) x0 x1 j = elem (x0 j) (x1 j) * weight x1 ⟨(j 1).val, (j 1).isLt⟩ := by
  rw [val_main_v23_apply, v20_eq, v22_eq x1 h1, term_eq _ _ (h1 j)]
  rfl

end Stages

/-! ### The result -/

/-- For real probabilities and targets that are zero or one, the reference's result is the loss. -/
theorem val_eq_loss
    (x0 x1 : (⟨Cert.ReferenceIdeal.S4000000x8, .f32⟩ : Idealize.ShloMosaic.BufTy).Contents (Idealize.ShloMosaic.Elt Idealize.ShloMosaic.Ideal))
    (h0 : ∀ i, ∃ r : ℝ, x0 i = (r : EReal)) (h1 : ∀ i, x1 i = 0 ∨ x1 i = 1) :
    Cert.ReferenceIdeal.Read.val_main_v25 (F := Idealize.ShloMosaic.Ideal) x0 x1 = fun _ => Cert.Loss.loss x0 x1 := by
  funext i
  rw [val_main_v25_apply, val_main_v24_apply, val_main_cst_6_apply, val_main_cst_7_apply, Ideal.ofBits_def,
    Ideal.ofBits_def, Ideal.hostDivf_def, Ideal.ofBits_zero_f32, zero_add, loss]
  refine congrArg (fun z => Ideal.div z cntW) ?_
  rw [Finset.sum_congr rfl fun j _ => v23_eq x0 x1 h1 j]
  exact sum_weighted (weight x1) (fun i => elem (x0 i) (x1 i)) (fun b => isReal_weight x1 h1 b)
    (fun i => isReal_elem _ _ (h0 i))

end Cert.ReferenceIdeal.LossValue

end
-- ==== Proof.PreDecode.lean ====
/-
  The printed precondition `finite_inputs`, read back at the extended reals. The predicate is the conjunction of
  three statements over all of the [4000000, 8] index set: every |x0| is below +∞, every |x1| is below +∞, and
  every entry of x1 equals the word of 0.0 or the word of 1.0. From the first, every entry of x0 is a real
  number (an extended real whose absolute value max x (-x) is below ⊤ is neither ⊤ nor ⊥); from the third, every
  entry of x1 is 0 or 1.
-/
import proofs.«422197_j59631325938067_3_alg».proof.Pre_finite_inputs
import Idealize.ShloMosaic.Lib.ReduceAll
import Idealize.ShloMosaic.PureOps.Ideal
import Idealize.ShloMosaic.PureOps.Ideal.Laws
import Idealize.ShloMosaic.Lib.ValueIdx

noncomputable section

namespace Cert.PreDecode

open Idealize.ShloMosaic Cert.Pre_finite_inputs

/-- The rank-0 shape has one index. -/
instance subsingleton_S_ : Subsingleton S_.Idx := ⟨fun a b => funext fun d => d.elim0⟩

/-- A one-bit word made from a truth value is 1 exactly when the value is true. -/
theorem ofBool_one_iff (b : Bool) : BitVec.ofBool b = 1#1 ↔ b = true := by cases b <;> decide

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 is +∞. -/
theorem top_word : Ideal.ofBits .f32 0x7F800000#32 = ⊤ := by simp [Ideal.ofBits, Ideal.ieee]

/-- The word 0x3F800000 is the number one. -/
theorem one_word : Ideal.ofBits .f32 0x3F800000#32 = 1 := by
  simp [Ideal.ofBits, Ideal.ieee, -EReal.coe_mul]; norm_num

/-- The precondition read back: every entry of x0 is a real number and every entry of x1 is 0 or 1. The predicate's
    value at its one index is a conjunction ((A ∧ B) ∧ C) of three all-reductions; A and C each give their element
    fact at every index, where the broadcast constant is the constant itself. -/
theorem of_pre [Cert.Pre_finite_inputs.Facts]
    (x0 x1 : Idealize.ShloMosaic.FVec Idealize.ShloMosaic.Ideal Cert.Pre_finite_inputs.S4000000x8 .f32)
    (h : Cert.Pre_finite_inputs.fn (F := Idealize.ShloMosaic.Ideal) x0 x1 = fun _ => 1#1) :
    (∀ i, ∃ r : ℝ, x0 i = (r : EReal)) ∧ (∀ i, x1 i = 0 ∨ x1 i = 1) := by
  have e := congrFun h ValueIdx.ix0
  dsimp only [fn] at e
  obtain ⟨e12, e3⟩ := IntOp.andi_eq_one.1 e
  obtain ⟨e1, -⟩ := IntOp.andi_eq_one.1 e12
  refine ⟨fun i => ?_, fun i => ?_⟩
  · have a := Host.reduce_andi_all _ _ _ _ _ e1 i
    simp only [cmpf, Host.absf, broadcastInDim, constant] at a
    change Ideal.cmp .olt (max (x0 i) (-(x0 i))) (Ideal.ofBits .f32 0x7F800000#32) = 1#1 at a
    rw [top_word, Ideal.cmp, ofBool_one_iff, decide_eq_true_eq] at a
    exact real_of_abs_lt_top _ a
  · have a := Host.reduce_andi_all _ _ _ _ _ e3 i
    simp only [ori, cmpf, broadcastInDim, constant] at a
    rcases IntOp.ori_eq_one.1 a with a | a
    · left
      change Ideal.cmp .oeq (x1 i) (Ideal.ofBits .f32 0x00000000#32) = 1#1 at a
      rw [Ideal.ofBits_zero_f32, Ideal.cmp, ofBool_one_iff, decide_eq_true_eq] at a
      exact a
    · right
      change Ideal.cmp .oeq (x1 i) (Ideal.ofBits .f32 0x3F800000#32) = 1#1 at a
      rw [one_word, Ideal.cmp, ofBool_one_iff, decide_eq_true_eq] at a
      exact a

end Cert.PreDecode

end
-- ==== Proof.lean ====
/-
  The kernel computes the inverse-class-frequency weighted binary cross entropy of probabilities `p` and 0/1 targets
  `t`, both [4000000, 8], in one pass over the arrays laid out as [2, 125000, 128]: per lane it accumulates, over the
  25 blocks of 5000 rows of each half, the sum of the targets and the sum of the clamped negative log-likelihoods
  `-max (log q) (-100)`, `q` the probability given to the element's own label (`p` where `t = 1`, else `1 - p`); the
  host then adds the two halves and the 16 lane groups of each class, and returns `(∑ⱼ Sⱼ / (Fⱼ + 0.001)) / 3.2e7`.
  The reference counts `t = 1` per class, and averages `-(t log p + (1 - t) log (1 - p)) / (Fⱼ + 0.001)` (both logs
  clamped at -100) over all elements.

  Over the extended reals both are the closed-form loss `Cert.Loss.loss p t`:
  * the kernel's result is that loss for ANY arguments — it is the same sum taken in another order (the tiling of
    the rows by lane group, half, block and row), and sums of extended reals may be reordered freely;
  * the reference's result is that loss when every target is 0 or 1 (then the count of ones is the sum of the
    targets and the blended log term is the log of the label's own probability) and every probability is real (then
    every term and every weight is real, and a real weight may be moved across a sum of real terms).
  The precondition states exactly those two things (beside the targets' finiteness, which they imply).
  The frames of the two kernel programs are the generated ones; the reference's is its generated run.
-/
import proofs.«422197_j59631325938067_3_alg».proof.Defs
import proofs.«422197_j59631325938067_3_alg».proof.Proof.Gen.Kernel
import proofs.«422197_j59631325938067_3_alg».proof.Proof.Gen.Kernel.Skeleton
import proofs.«422197_j59631325938067_3_alg».proof.Proof.Gen.Kernel.Launch
import proofs.«422197_j59631325938067_3_alg».proof.Proof.Gen.Kernel.Points
import proofs.«422197_j59631325938067_3_alg».proof.Proof.Gen.Kernel.Frame
import proofs.«422197_j59631325938067_3_alg».proof.Proof.Gen.KernelIdeal
import proofs.«422197_j59631325938067_3_alg».proof.Proof.Gen.KernelIdeal.Skeleton
import proofs.«422197_j59631325938067_3_alg».proof.Proof.Gen.KernelIdeal.Launch
import proofs.«422197_j59631325938067_3_alg».proof.Proof.Gen.KernelIdeal.Points
import proofs.«422197_j59631325938067_3_alg».proof.Proof.Gen.KernelIdeal.Frame
import proofs.«422197_j59631325938067_3_alg».proof.Proof.Gen.ReferenceIdeal
import proofs.«422197_j59631325938067_3_alg».proof.Proof.Gen.Pre_finite_inputs
import proofs.«422197_j59631325938067_3_alg».proof.Proof.Gen.ReferenceIdeal.Run
import proofs.«422197_j59631325938067_3_alg».proof.Proof.Gen.ReferenceIdeal.Read
import proofs.«422197_j59631325938067_3_alg».proof.Proof.KernelValue
import proofs.«422197_j59631325938067_3_alg».proof.Proof.RefValue
import proofs.«422197_j59631325938067_3_alg».proof.Proof.PreDecode
import Idealize.ShloMosaic.Adequacy
import Idealize.ShloMosaic.Init

noncomputable section

namespace Cert.Proof

open Idealize.ShloMosaic Idealize.SL.Sem

/-- The two kernel programs run, and the reference runs, leaving the arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the extended reals both programs end at the closed-form loss of their (agreeing) arguments: the kernel for any
    arguments, the reference because the precondition makes the probabilities real and the targets 0 or 1. -/
theorem algebraic : Cert.algebraic_KernelIdeal_ReferenceIdeal := by
  intro m ρ m' ρ' hpre hagree
  refine ⟨fun c _ => Cert.Loss.loss (Cert.KernelIdeal.LossValue.argP m c) (Cert.KernelIdeal.LossValue.argT m c),
    Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.PreDecode.of_pre _ _ (hpre c)
  rw [Cert.ReferenceIdeal.Read.val_main_v25_eq, (hagree c).1, (hagree c).2]
  exact Cert.ReferenceIdeal.LossValue.val_eq_loss _ _ h0 h1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
